-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048x2048 .f32) (main_arg13 : FVec F S2048x2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x256 : Shape := ⟨2, ![512, 256]⟩
abbrev S256x512 : Shape := ⟨2, ![256, 512]⟩
abbrev S1x512 : Shape := ⟨2, ![1, 512]⟩
abbrev S512x512 : Shape := ⟨2, ![512, 512]⟩

abbrev nBuf : Space → Nat
  | .hbm => 21
  | .vmem => 38
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S4096x2048, .f32⟩
  | .hbm, ⟨20, _⟩ => ⟨S4096x2048, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S1x512, .f32⟩
  | .local _ .vmem, ⟨21, _⟩ => ⟨S1x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S1x512, .f32⟩
  | .local _ .vmem, ⟨27, _⟩ => ⟨S1x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4_0 : Ref sig .tc := ⟨.hbm, 19, rfl⟩
abbrev main_v4_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_43 : BitVec 32 := 0#32
  let v57 : BitVec 1 := Scalar.cmpi .ne v56 c0_i32_43
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x256_S512x256_0_0 : ∀ a, (![0, 0] : Fin 2 → Nat) a + S512x256.size a ≤ S512x256.size a
  h_S512x256 : 0 < S512x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x2048.size a
  hwx0_0 : ∀ i : grid0.Coords, EltTy.bits .f32 = 32 ∨ (Rect.block (s := S4096x2048) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x2048.size a
  hwx0_1 : ∀ i : grid0.Coords, EltTy.bits .f32 = 32 ∨ (Rect.block (s := S4096x2048) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .f32 = 32 ∨ (Rect.block (s := S2048x2048) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x2048.size a
  hwx0_3 : ∀ i : grid0.Coords, EltTy.bits .f32 = 32 ∨ (Rect.block (s := S2048x2048) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x2048.size a
  hwx0_5 : ∀ i : grid0.Coords, EltTy.bits .f32 = 32 ∨ (Rect.block (s := S2048x2048) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S2048x2048.size a
  hwx0_6 : ∀ i : grid0.Coords, EltTy.bits .f32 = 32 ∨ (Rect.block (s := S2048x2048) S256x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S2048x2048.size a
  hwx0_8 : ∀ i : grid0.Coords, EltTy.bits .f32 = 32 ∨ (Rect.block (s := S2048x2048) S256x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S2048x2048.size a
  hwx0_9 : ∀ i : grid0.Coords, EltTy.bits .f32 = 32 ∨ (Rect.block (s := S2048x2048) S256x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x2048.size a
  hwx0_10 : ∀ i : grid0.Coords, EltTy.bits .f32 = 32 ∨ (Rect.block (s := S1x2048) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S2048x2048.size a
  hwx0_11 : ∀ i : grid0.Coords, EltTy.bits .f32 = 32 ∨ (Rect.block (s := S2048x2048) S256x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S2048x2048.size a
  hwx0_12 : ∀ i : grid0.Coords, EltTy.bits .f32 = 32 ∨ (Rect.block (s := S2048x2048) S256x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x512.size a ≤ S4096x2048.size a
  hwx0_14 : ∀ i : grid0.Coords, EltTy.bits .f32 = 32 ∨ (Rect.block (s := S4096x2048) S512x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x512.size a ≤ S4096x2048.size a
  hwx0_15 : ∀ i : grid0.Coords, EltTy.bits .f32 = 32 ∨ (Rect.block (s := S4096x2048) S512x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S4096x2048.size a
  hwx0_16 : ∀ i : grid0.Coords, EltTy.bits .f32 = 32 ∨ (Rect.block (s := S4096x2048) S512x512.size (cc0_transform_16 i) (hinb0_16 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S256x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S256x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v3) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S512x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_0) S512x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v4_1) S512x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S1x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Pieces.lean ====
/-
  What one grid point leaves in each accumulator and, at the last tile, in the two result blocks — as values.

  The body keeps four accumulators (input, forget, candidate and output gate). At every point it adds to each the
  tile's contribution `x_tile · Wx_tile + h_tile · Wh_tile`; at a first tile it zeroes them first; at the last tile it
  then reads the four updated accumulators back, adds the biases, applies the gate functions and stores the next
  hidden state and the next cell state. Each accumulator is stored whole, so what a point leaves in it is the
  payload of that one store, and a read-back of a block just stored whole is that store's payload.
-/
import proofs.«159235_j16183436772221_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The input gate's accumulator after a tile: what it held plus the tile's contribution. -/
def updI (x h : Vec F S512x256 .f32) (s : Vec F S512x512 .f32) (wx wh : Vec F S256x512 .f32) : Vec F S512x512 .f32 :=
  k0_pay12 x h s wx wh
/-- The forget gate's. -/
def updF (x h : Vec F S512x256 .f32) (s : Vec F S512x512 .f32) (wx wh : Vec F S256x512 .f32) : Vec F S512x512 .f32 :=
  k0_pay1 (k0_pay13 x h s wx wh)
/-- The candidate's. -/
def updC (x h : Vec F S512x256 .f32) (s : Vec F S512x512 .f32) (wx wh : Vec F S256x512 .f32) : Vec F S512x512 .f32 :=
  k0_pay2 (k0_pay10 x) (k0_pay11 h) s wx wh
/-- The output gate's. -/
def updO (x h : Vec F S512x256 .f32) (s : Vec F S512x512 .f32) (wx wh : Vec F S256x512 .f32) : Vec F S512x512 .f32 :=
  k0_pay3 (k0_pay10 x) (k0_pay11 h) s wx wh

/-! The point's staging memrefs (each whole), its fifteen input blocks and what the four accumulators held. -/

variable (c : Dev nD) (i : grid0.Coords)
  (arg3 : Memref sig .tc .vmem S512x256 .f32) (harg3 : arg3.IsWhole) (arg4 : Memref sig .tc .vmem S512x256 .f32) (harg4 : arg4.IsWhole)
  (arg5 : Memref sig .tc .vmem S256x512 .f32) (harg5 : arg5.IsWhole) (arg6 : Memref sig .tc .vmem S256x512 .f32) (harg6 : arg6.IsWhole)
  (arg7 : Memref sig .tc .vmem S1x512 .f32) (harg7 : arg7.IsWhole)
  (arg8 : Memref sig .tc .vmem S256x512 .f32) (harg8 : arg8.IsWhole) (arg9 : Memref sig .tc .vmem S256x512 .f32) (harg9 : arg9.IsWhole)
  (arg10 : Memref sig .tc .vmem S1x512 .f32) (harg10 : arg10.IsWhole)
  (arg11 : Memref sig .tc .vmem S256x512 .f32) (harg11 : arg11.IsWhole) (arg12 : Memref sig .tc .vmem S256x512 .f32) (harg12 : arg12.IsWhole)
  (arg13 : Memref sig .tc .vmem S1x512 .f32) (harg13 : arg13.IsWhole)
  (arg14 : Memref sig .tc .vmem S256x512 .f32) (harg14 : arg14.IsWhole) (arg15 : Memref sig .tc .vmem S256x512 .f32) (harg15 : arg15.IsWhole)
  (arg16 : Memref sig .tc .vmem S1x512 .f32) (harg16 : arg16.IsWhole)
  (arg17 : Memref sig .tc .vmem S512x512 .f32) (harg17 : arg17.IsWhole) (arg18 : Memref sig .tc .vmem S512x512 .f32) (harg18 : arg18.IsWhole)
  (arg19 : Memref sig .tc .vmem S512x512 .f32) (harg19 : arg19.IsWhole) (arg20 : Memref sig .tc .vmem S512x512 .f32) (harg20 : arg20.IsWhole)
  (arg21 : Memref sig .tc .vmem S512x512 .f32) (harg21 : arg21.IsWhole) (arg22 : Memref sig .tc .vmem S512x512 .f32) (harg22 : arg22.IsWhole)
  (arg23 : Memref sig .tc .vmem S512x512 .f32) (harg23 : arg23.IsWhole)
variable (x0 x1 : Vec F S512x256 .f32) (x2 x3 : Vec F S256x512 .f32) (x4 : Vec F S1x512 .f32)
  (x5 x6 : Vec F S256x512 .f32) (x7 : Vec F S1x512 .f32) (x8 x9 : Vec F S256x512 .f32) (x10 : Vec F S1x512 .f32)
  (x11 x12 : Vec F S256x512 .f32) (x13 : Vec F S1x512 .f32) (x14 : Vec F S512x512 .f32)
  (xs0 xs1 xs2 xs3 : Vec F S512x512 .f32)

set_option hygiene false in
/-- A first-tile term at this section's memrefs, conditions `hc0` `hc1` and input blocks. -/
local macro "first% " f:term:max : term =>
  `($f c i arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19
      arg20 harg20 arg21 harg21 arg22 harg22 arg23 harg23 hc0 hc1 x0 x1 x2 x3 x4 x5 x6 x7 x8 x9 x10 x11 x12 x13 x14)

set_option hygiene false in
/-- A later-tile term: the same, over what the four accumulators held. -/
local macro "later% " f:term:max : term =>
  `($f c i arg3 harg3 arg4 harg4 arg5 harg5 arg6 harg6 arg7 harg7 arg8 harg8 arg9 harg9 arg10 harg10 arg11 harg11
      arg12 harg12 arg13 harg13 arg14 harg14 arg15 harg15 arg16 harg16 arg17 harg17 arg18 harg18 arg19 harg19
      arg20 harg20 arg21 harg21 arg22 harg22 arg23 harg23 hc0 hc1 x0 x1 x2 x3 x4 x5 x6 x7 x8 x9 x10 x11 x12 x13 x14
      xs0 xs1 xs2 xs3)

set_option hygiene false in
/-- Every load reads its whole buffer: a staged block is its contents, a block just stored whole its payload. -/
local macro "read_whole" : tactic =>
  `(tactic| simp only [View.readCov_unit_zero (S := S512x512) _ hz, View.readAt_eq_ld, harg3.read_unread, harg4.read_unread,
      harg5.read_unread, harg6.read_unread, harg7.read_unread, harg8.read_unread, harg9.read_unread, harg10.read_unread,
      harg11.read_unread, harg12.read_unread, harg13.read_unread, harg14.read_unread, harg15.read_unread,
      harg16.read_unread, harg17.read_unread, harg20.read_unread, harg21.read_unread, harg22.read_unread,
      harg23.read_unread, View.ld_unit_zero (S := S512x256) hz, View.ld_unit_zero (S := S256x512) hz,
      View.ld_unit_zero (S := S512x512) hz, View.ld_unit_zero (S := S1x512) hz])

/-! ## A first tile: each accumulator is zeroed, then takes the tile's contribution -/

theorem sA0 (hc0 : cond0_0 i) (hc1 : ¬cond0_1 i) : first% sout0_A_0 = updI x0 x1 k0_pay6 x2 x3 := by
  unfold sout0_A_0
  rw [View.read_writes_eq_canon _ _ _ (first% scover0_A_0)]
  unfold kernelRun0_A
  dsimp only
  sl_unfold_words
  rw [View.canon_cons_unit_zero (S := S512x512) hz]
  unfold updI
  read_whole

theorem sA1 (hc0 : cond0_0 i) (hc1 : ¬cond0_1 i) : first% sout0_A_1 = updF x0 x1 k0_pay7 x5 x6 := by
  unfold sout0_A_1
  rw [View.read_writes_eq_canon _ _ _ (first% scover0_A_1)]
  unfold kernelRun0_A
  dsimp only
  sl_unfold_words
  rw [View.canon_cons_unit_zero (S := S512x512) hz]
  unfold updF
  read_whole

theorem sA2 (hc0 : cond0_0 i) (hc1 : ¬cond0_1 i) : first% sout0_A_2 = updC x0 x1 k0_pay8 x8 x9 := by
  unfold sout0_A_2
  rw [View.read_writes_eq_canon _ _ _ (first% scover0_A_2)]
  unfold kernelRun0_A
  dsimp only
  sl_unfold_words
  rw [View.canon_cons_unit_zero (S := S512x512) hz]
  unfold updC
  read_whole

theorem sA3 (hc0 : cond0_0 i) (hc1 : ¬cond0_1 i) : first% sout0_A_3 = updO x0 x1 k0_pay9 x11 x12 := by
  unfold sout0_A_3
  rw [View.read_writes_eq_canon _ _ _ (first% scover0_A_3)]
  unfold kernelRun0_A
  dsimp only
  sl_unfold_words
  rw [View.canon_cons_unit_zero (S := S512x512) hz]
  unfold updO
  read_whole

/-! ## A middle tile: each accumulator takes the tile's contribution over what it held -/

theorem sB0 (hc0 : ¬cond0_0 i) (hc1 : ¬cond0_1 i) : later% sout0_B_0 = updI x0 x1 xs0 x2 x3 := by
  unfold sout0_B_0
  rw [View.read_writes_eq_canon _ _ _ (later% scover0_B_0)]
  unfold kernelRun0_B
  dsimp only
  sl_unfold_words
  rw [View.canon_unit_zero hz]
  unfold updI
  read_whole

theorem sB1 (hc0 : ¬cond0_0 i) (hc1 : ¬cond0_1 i) : later% sout0_B_1 = updF x0 x1 xs1 x5 x6 := by
  unfold sout0_B_1
  rw [View.read_writes_eq_canon _ _ _ (later% scover0_B_1)]
  unfold kernelRun0_B
  dsimp only
  sl_unfold_words
  rw [View.canon_unit_zero hz]
  unfold updF
  read_whole

theorem sB2 (hc0 : ¬cond0_0 i) (hc1 : ¬cond0_1 i) : later% sout0_B_2 = updC x0 x1 xs2 x8 x9 := by
  unfold sout0_B_2
  rw [View.read_writes_eq_canon _ _ _ (later% scover0_B_2)]
  unfold kernelRun0_B
  dsimp only
  sl_unfold_words
  rw [View.canon_unit_zero hz]
  unfold updC
  read_whole

theorem sB3 (hc0 : ¬cond0_0 i) (hc1 : ¬cond0_1 i) : later% sout0_B_3 = updO x0 x1 xs3 x11 x12 := by
  unfold sout0_B_3
  rw [View.read_writes_eq_canon _ _ _ (later% scover0_B_3)]
  unfold kernelRun0_B
  dsimp only
  sl_unfold_words
  rw [View.canon_unit_zero hz]
  unfold updO
  read_whole

/-! ## The last tile: the accumulators as at a middle tile, then the two result blocks -/

theorem sC0 (hc0 : ¬cond0_0 i) (hc1 : cond0_1 i) : later% sout0_C_0 = updI x0 x1 xs0 x2 x3 := by
  unfold sout0_C_0
  rw [View.read_writes_eq_canon _ _ _ (later% scover0_C_0)]
  unfold kernelRun0_C
  dsimp only
  sl_unfold_words
  rw [View.canon_unit_zero hz]
  unfold updI
  read_whole

theorem sC1 (hc0 : ¬cond0_0 i) (hc1 : cond0_1 i) : later% sout0_C_1 = updF x0 x1 xs1 x5 x6 := by
  unfold sout0_C_1
  rw [View.read_writes_eq_canon _ _ _ (later% scover0_C_1)]
  unfold kernelRun0_C
  dsimp only
  sl_unfold_words
  rw [View.canon_unit_zero hz]
  unfold updF
  read_whole

theorem sC2 (hc0 : ¬cond0_0 i) (hc1 : cond0_1 i) : later% sout0_C_2 = updC x0 x1 xs2 x8 x9 := by
  unfold sout0_C_2
  rw [View.read_writes_eq_canon _ _ _ (later% scover0_C_2)]
  unfold kernelRun0_C
  dsimp only
  sl_unfold_words
  rw [View.canon_unit_zero hz]
  unfold updC
  read_whole

theorem sC3 (hc0 : ¬cond0_0 i) (hc1 : cond0_1 i) : later% sout0_C_3 = updO x0 x1 xs3 x11 x12 := by
  unfold sout0_C_3
  rw [View.read_writes_eq_canon _ _ _ (later% scover0_C_3)]
  unfold kernelRun0_C
  dsimp only
  sl_unfold_words
  rw [View.canon_unit_zero hz]
  unfold updO
  read_whole

/-- The next hidden state's block is the gate formula of the four UPDATED accumulators, the biases and the old cell
    state's block. -/
theorem oC15 (hc0 : ¬cond0_0 i) (hc1 : cond0_1 i) :
    later% out0_C_15
      = k0_pay5 (updI x0 x1 xs0 x2 x3) x4 (updF x0 x1 xs1 x5 x6) x7 (updO x0 x1 xs3 x11 x12) x13
          (updC x0 x1 xs2 x8 x9) x10 x14 := by
  unfold out0_C_15
  rw [View.read_writes_eq_canon _ _ _ (later% cover0_C_15)]
  unfold kernelRun0_C
  dsimp only
  sl_unfold_words
  rw [View.canon_unit_zero hz]
  unfold updI updF updC updO
  read_whole

/-- The next cell state's block likewise (the output gate does not enter). -/
theorem oC16 (hc0 : ¬cond0_0 i) (hc1 : cond0_1 i) :
    later% out0_C_16
      = k0_pay4 (updI x0 x1 xs0 x2 x3) x4 (updF x0 x1 xs1 x5 x6) x7 (updC x0 x1 xs2 x8 x9) x10 x14 := by
  unfold out0_C_16
  rw [View.read_writes_eq_canon _ _ _ (later% cover0_C_16)]
  unfold kernelRun0_C
  dsimp only
  sl_unfold_words
  rw [View.canon_unit_zero hz]
  unfold updI updF updC
  read_whole

end Cert.KernelIdeal.Pieces

end
-- ==== Proof.BlockReads.lean ====
/-
  Each input window's block at a grid point, as a rectangle of its argument array.

  The grid has 8 × 4 × 8 points; point `t` has row-block `t / 32`, column-block `(t / 8) % 4` and tile `t % 8`.
  The two activations' 512 × 256 blocks sit at (row-block, tile); the eight weights' 256 × 512 blocks at
  (tile, column-block); the four biases' 1 × 512 blocks at (0, column-block) of the bias laid out as one row; the old
  cell state's 512 × 512 block at (row-block, column-block). A block's entry is the array's entry at
  block index × block size + the coordinate inside the block.
-/
import proofs.«159235_j16183436772221_1_alg».proof.Proof.Gen.KernelIdeal.Frame
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The activations' index maps: (row-block, tile). -/
theorem idx_act : ∀ t : Fin cfg0.N,
    win0_0.index t 0 = t.val / 32 ∧ win0_0.index t 1 = t.val % 8 ∧ win0_1.index t 0 = t.val / 32 ∧ win0_1.index t 1 = t.val % 8 :=
  (by decide +kernel : ∀ t : Fin grid0.N,
    win0_0.index t 0 = t.val / 32 ∧ win0_0.index t 1 = t.val % 8 ∧ win0_1.index t 0 = t.val / 32 ∧ win0_1.index t 1 = t.val % 8)

/-- The weights' index maps: (tile, column-block). -/
theorem idx_wgt : ∀ t : Fin cfg0.N,
    (win0_2.index t 0 = t.val % 8 ∧ win0_2.index t 1 = t.val / 8 % 4) ∧ (win0_3.index t 0 = t.val % 8 ∧ win0_3.index t 1 = t.val / 8 % 4)
    ∧ (win0_5.index t 0 = t.val % 8 ∧ win0_5.index t 1 = t.val / 8 % 4) ∧ (win0_6.index t 0 = t.val % 8 ∧ win0_6.index t 1 = t.val / 8 % 4)
    ∧ (win0_8.index t 0 = t.val % 8 ∧ win0_8.index t 1 = t.val / 8 % 4) ∧ (win0_9.index t 0 = t.val % 8 ∧ win0_9.index t 1 = t.val / 8 % 4)
    ∧ (win0_11.index t 0 = t.val % 8 ∧ win0_11.index t 1 = t.val / 8 % 4) ∧ (win0_12.index t 0 = t.val % 8 ∧ win0_12.index t 1 = t.val / 8 % 4) :=
  (by decide +kernel : ∀ t : Fin grid0.N,
    (win0_2.index t 0 = t.val % 8 ∧ win0_2.index t 1 = t.val / 8 % 4) ∧ (win0_3.index t 0 = t.val % 8 ∧ win0_3.index t 1 = t.val / 8 % 4)
    ∧ (win0_5.index t 0 = t.val % 8 ∧ win0_5.index t 1 = t.val / 8 % 4) ∧ (win0_6.index t 0 = t.val % 8 ∧ win0_6.index t 1 = t.val / 8 % 4)
    ∧ (win0_8.index t 0 = t.val % 8 ∧ win0_8.index t 1 = t.val / 8 % 4) ∧ (win0_9.index t 0 = t.val % 8 ∧ win0_9.index t 1 = t.val / 8 % 4)
    ∧ (win0_11.index t 0 = t.val % 8 ∧ win0_11.index t 1 = t.val / 8 % 4) ∧ (win0_12.index t 0 = t.val % 8 ∧ win0_12.index t 1 = t.val / 8 % 4))

/-- The biases' index maps: (0, column-block). -/
theorem idx_bias : ∀ t : Fin cfg0.N,
    (win0_4.index t 0 = 0 ∧ win0_4.index t 1 = t.val / 8 % 4) ∧ (win0_7.index t 0 = 0 ∧ win0_7.index t 1 = t.val / 8 % 4)
    ∧ (win0_10.index t 0 = 0 ∧ win0_10.index t 1 = t.val / 8 % 4) ∧ (win0_13.index t 0 = 0 ∧ win0_13.index t 1 = t.val / 8 % 4) :=
  (by decide +kernel : ∀ t : Fin grid0.N,
    (win0_4.index t 0 = 0 ∧ win0_4.index t 1 = t.val / 8 % 4) ∧ (win0_7.index t 0 = 0 ∧ win0_7.index t 1 = t.val / 8 % 4)
    ∧ (win0_10.index t 0 = 0 ∧ win0_10.index t 1 = t.val / 8 % 4) ∧ (win0_13.index t 0 = 0 ∧ win0_13.index t 1 = t.val / 8 % 4))

/-- The old cell state's and the two results' index maps: (row-block, column-block). -/
theorem idx_out : ∀ t : Fin cfg0.N,
    (win0_14.index t 0 = t.val / 32 ∧ win0_14.index t 1 = t.val / 8 % 4) ∧ (win0_15.index t 0 = t.val / 32 ∧ win0_15.index t 1 = t.val / 8 % 4)
    ∧ (win0_16.index t 0 = t.val / 32 ∧ win0_16.index t 1 = t.val / 8 % 4) :=
  (by decide +kernel : ∀ t : Fin grid0.N,
    (win0_14.index t 0 = t.val / 32 ∧ win0_14.index t 1 = t.val / 8 % 4) ∧ (win0_15.index t 0 = t.val / 32 ∧ win0_15.index t 1 = t.val / 8 % 4)
    ∧ (win0_16.index t 0 = t.val / 32 ∧ win0_16.index t 1 = t.val / 8 % 4))

/-- The input's block: rows `512·(t/32) …`, positions `256·(t%8) …`. -/
theorem x_blk (c : Dev nD) (t : Fin cfg0.N) (p : Fin 512) (kk : Fin 256) (r : Fin 4096) (k : Fin 2048)
    (hr : r.val = 512 * (t.val / 32) + p.val) (hk : k.val = 256 * (t.val % 8) + kk.val) :
    (iblk m c 0 t : Vec F S512x256 .f32) (ix2 p kk) = m ((c : Thread nD τ).loc main_arg0) (ix2 r k) := by
  unfold iblk
  rw [View.read_apply]
  show V m c main_arg0 _ = _
  rw [V_main_arg0]
  refine congrArg _ (funext fun a => Fin.ext ?_)
  match a with
  | ⟨0, _⟩ => show win0_0.index t 0 * 512 + 1 * p.val = r.val; rw [(idx_act t).1, hr]; omega
  | ⟨1, _⟩ => show win0_0.index t 1 * 256 + 1 * kk.val = k.val; rw [(idx_act t).2.1, hk]; omega

/-- The hidden state's block: the same rectangle of the hidden state. -/
theorem h_blk (c : Dev nD) (t : Fin cfg0.N) (p : Fin 512) (kk : Fin 256) (r : Fin 4096) (k : Fin 2048)
    (hr : r.val = 512 * (t.val / 32) + p.val) (hk : k.val = 256 * (t.val % 8) + kk.val) :
    (iblk m c 1 t : Vec F S512x256 .f32) (ix2 p kk) = m ((c : Thread nD τ).loc main_arg1) (ix2 r k) := by
  unfold iblk
  rw [View.read_apply]
  show V m c main_arg1 _ = _
  rw [V_main_arg1]
  refine congrArg _ (funext fun a => Fin.ext ?_)
  match a with
  | ⟨0, _⟩ => show win0_1.index t 0 * 512 + 1 * p.val = r.val; rw [(idx_act t).2.2.1, hr]; omega
  | ⟨1, _⟩ => show win0_1.index t 1 * 256 + 1 * kk.val = k.val; rw [(idx_act t).2.2.2, hk]; omega

/-! The eight weights' blocks: positions `256·(t%8) …`, columns `512·(t/8%4) …`. -/

theorem wxi_blk (c : Dev nD) (t : Fin cfg0.N) (kk : Fin 256) (q : Fin 512) (k cc : Fin 2048)
    (hk : k.val = 256 * (t.val % 8) + kk.val) (hc : cc.val = 512 * (t.val / 8 % 4) + q.val) :
    (iblk m c 2 t : Vec F S256x512 .f32) (ix2 kk q) = m ((c : Thread nD τ).loc main_arg3) (ix2 k cc) := by
  unfold iblk
  rw [View.read_apply]
  show V m c main_arg3 _ = _
  rw [V_main_arg3]
  refine congrArg _ (funext fun a => Fin.ext ?_)
  match a with
  | ⟨0, _⟩ => show win0_2.index t 0 * 256 + 1 * kk.val = k.val; rw [(idx_wgt t).1.1, hk]; omega
  | ⟨1, _⟩ => show win0_2.index t 1 * 512 + 1 * q.val = cc.val; rw [(idx_wgt t).1.2, hc]; omega

theorem whi_blk (c : Dev nD) (t : Fin cfg0.N) (kk : Fin 256) (q : Fin 512) (k cc : Fin 2048)
    (hk : k.val = 256 * (t.val % 8) + kk.val) (hc : cc.val = 512 * (t.val / 8 % 4) + q.val) :
    (iblk m c 3 t : Vec F S256x512 .f32) (ix2 kk q) = m ((c : Thread nD τ).loc main_arg4) (ix2 k cc) := by
  unfold iblk
  rw [View.read_apply]
  show V m c main_arg4 _ = _
  rw [V_main_arg4]
  refine congrArg _ (funext fun a => Fin.ext ?_)
  match a with
  | ⟨0, _⟩ => show win0_3.index t 0 * 256 + 1 * kk.val = k.val; rw [(idx_wgt t).2.1.1, hk]; omega
  | ⟨1, _⟩ => show win0_3.index t 1 * 512 + 1 * q.val = cc.val; rw [(idx_wgt t).2.1.2, hc]; omega

theorem wxf_blk (c : Dev nD) (t : Fin cfg0.N) (kk : Fin 256) (q : Fin 512) (k cc : Fin 2048)
    (hk : k.val = 256 * (t.val % 8) + kk.val) (hc : cc.val = 512 * (t.val / 8 % 4) + q.val) :
    (iblk m c 5 t : Vec F S256x512 .f32) (ix2 kk q) = m ((c : Thread nD τ).loc main_arg6) (ix2 k cc) := by
  unfold iblk
  rw [View.read_apply]
  show V m c main_arg6 _ = _
  rw [V_main_arg6]
  refine congrArg _ (funext fun a => Fin.ext ?_)
  match a with
  | ⟨0, _⟩ => show win0_5.index t 0 * 256 + 1 * kk.val = k.val; rw [(idx_wgt t).2.2.1.1, hk]; omega
  | ⟨1, _⟩ => show win0_5.index t 1 * 512 + 1 * q.val = cc.val; rw [(idx_wgt t).2.2.1.2, hc]; omega

theorem whf_blk (c : Dev nD) (t : Fin cfg0.N) (kk : Fin 256) (q : Fin 512) (k cc : Fin 2048)
    (hk : k.val = 256 * (t.val % 8) + kk.val) (hc : cc.val = 512 * (t.val / 8 % 4) + q.val) :
    (iblk m c 6 t : Vec F S256x512 .f32) (ix2 kk q) = m ((c : Thread nD τ).loc main_arg7) (ix2 k cc) := by
  unfold iblk
  rw [View.read_apply]
  show V m c main_arg7 _ = _
  rw [V_main_arg7]
  refine congrArg _ (funext fun a => Fin.ext ?_)
  match a with
  | ⟨0, _⟩ => show win0_6.index t 0 * 256 + 1 * kk.val = k.val; rw [(idx_wgt t).2.2.2.1.1, hk]; omega
  | ⟨1, _⟩ => show win0_6.index t 1 * 512 + 1 * q.val = cc.val; rw [(idx_wgt t).2.2.2.1.2, hc]; omega

theorem wxc_blk (c : Dev nD) (t : Fin cfg0.N) (kk : Fin 256) (q : Fin 512) (k cc : Fin 2048)
    (hk : k.val = 256 * (t.val % 8) + kk.val) (hc : cc.val = 512 * (t.val / 8 % 4) + q.val) :
    (iblk m c 8 t : Vec F S256x512 .f32) (ix2 kk q) = m ((c : Thread nD τ).loc main_arg9) (ix2 k cc) := by
  unfold iblk
  rw [View.read_apply]
  show V m c main_arg9 _ = _
  rw [V_main_arg9]
  refine congrArg _ (funext fun a => Fin.ext ?_)
  match a with
  | ⟨0, _⟩ => show win0_8.index t 0 * 256 + 1 * kk.val = k.val; rw [(idx_wgt t).2.2.2.2.1.1, hk]; omega
  | ⟨1, _⟩ => show win0_8.index t 1 * 512 + 1 * q.val = cc.val; rw [(idx_wgt t).2.2.2.2.1.2, hc]; omega

theorem whc_blk (c : Dev nD) (t : Fin cfg0.N) (kk : Fin 256) (q : Fin 512) (k cc : Fin 2048)
    (hk : k.val = 256 * (t.val % 8) + kk.val) (hc : cc.val = 512 * (t.val / 8 % 4) + q.val) :
    (iblk m c 9 t : Vec F S256x512 .f32) (ix2 kk q) = m ((c : Thread nD τ).loc main_arg10) (ix2 k cc) := by
  unfold iblk
  rw [View.read_apply]
  show V m c main_arg10 _ = _
  rw [V_main_arg10]
  refine congrArg _ (funext fun a => Fin.ext ?_)
  match a with
  | ⟨0, _⟩ => show win0_9.index t 0 * 256 + 1 * kk.val = k.val; rw [(idx_wgt t).2.2.2.2.2.1.1, hk]; omega
  | ⟨1, _⟩ => show win0_9.index t 1 * 512 + 1 * q.val = cc.val; rw [(idx_wgt t).2.2.2.2.2.1.2, hc]; omega

theorem wxo_blk (c : Dev nD) (t : Fin cfg0.N) (kk : Fin 256) (q : Fin 512) (k cc : Fin 2048)
    (hk : k.val = 256 * (t.val % 8) + kk.val) (hc : cc.val = 512 * (t.val / 8 % 4) + q.val) :
    (iblk m c 11 t : Vec F S256x512 .f32) (ix2 kk q) = m ((c : Thread nD τ).loc main_arg12) (ix2 k cc) := by
  unfold iblk
  rw [View.read_apply]
  show V m c main_arg12 _ = _
  rw [V_main_arg12]
  refine congrArg _ (funext fun a => Fin.ext ?_)
  match a with
  | ⟨0, _⟩ => show win0_11.index t 0 * 256 + 1 * kk.val = k.val; rw [(idx_wgt t).2.2.2.2.2.2.1.1, hk]; omega
  | ⟨1, _⟩ => show win0_11.index t 1 * 512 + 1 * q.val = cc.val; rw [(idx_wgt t).2.2.2.2.2.2.1.2, hc]; omega

theorem who_blk (c : Dev nD) (t : Fin cfg0.N) (kk : Fin 256) (q : Fin 512) (k cc : Fin 2048)
    (hk : k.val = 256 * (t.val % 8) + kk.val) (hc : cc.val = 512 * (t.val / 8 % 4) + q.val) :
    (iblk m c 12 t : Vec F S256x512 .f32) (ix2 kk q) = m ((c : Thread nD τ).loc main_arg13) (ix2 k cc) := by
  unfold iblk
  rw [View.read_apply]
  show V m c main_arg13 _ = _
  rw [V_main_arg13]
  refine congrArg _ (funext fun a => Fin.ext ?_)
  match a with
  | ⟨0, _⟩ => show win0_12.index t 0 * 256 + 1 * kk.val = k.val; rw [(idx_wgt t).2.2.2.2.2.2.2.1, hk]; omega
  | ⟨1, _⟩ => show win0_12.index t 1 * 512 + 1 * q.val = cc.val; rw [(idx_wgt t).2.2.2.2.2.2.2.2, hc]; omega

/-- The old cell state's block: rows `512·(t/32) …`, columns `512·(t/8%4) …`. -/
theorem cx_blk (c : Dev nD) (t : Fin cfg0.N) (p q : Fin 512) (r : Fin 4096) (cc : Fin 2048)
    (hr : r.val = 512 * (t.val / 32) + p.val) (hc : cc.val = 512 * (t.val / 8 % 4) + q.val) :
    (iblk m c 14 t : Vec F S512x512 .f32) (ix2 p q) = m ((c : Thread nD τ).loc main_arg2) (ix2 r cc) := by
  unfold iblk
  rw [View.read_apply]
  show V m c main_arg2 _ = _
  rw [V_main_arg2]
  refine congrArg _ (funext fun a => Fin.ext ?_)
  match a with
  | ⟨0, _⟩ => show win0_14.index t 0 * 512 + 1 * p.val = r.val; rw [(idx_out t).1.1, hr]; omega
  | ⟨1, _⟩ => show win0_14.index t 1 * 512 + 1 * q.val = cc.val; rw [(idx_out t).1.2, hc]; omega

/-! The biases reach the region laid out as one row of 2048: the host re-lays each bias vector before the region. -/

theorem V_bi (c : Dev nD) : (V m c main_v0 : Vec F S1x2048 .f32)
    = shapeCast S1x2048 (m ((c : Thread nD τ).loc main_arg5)) shapeCasts_S2048_S1x2048 := by
  dsimp only [V, hostOps0]; after_results; rfl

theorem V_bf (c : Dev nD) : (V m c main_v1 : Vec F S1x2048 .f32)
    = shapeCast S1x2048 (m ((c : Thread nD τ).loc main_arg8)) shapeCasts_S2048_S1x2048 := by
  dsimp only [V, hostOps0]; after_results; rfl

theorem V_bc (c : Dev nD) : (V m c main_v2 : Vec F S1x2048 .f32)
    = shapeCast S1x2048 (m ((c : Thread nD τ).loc main_arg11)) shapeCasts_S2048_S1x2048 := by
  dsimp only [V, hostOps0]; after_results; rfl

theorem V_bo (c : Dev nD) : (V m c main_v3 : Vec F S1x2048 .f32)
    = shapeCast S1x2048 (m ((c : Thread nD τ).loc main_arg14)) shapeCasts_S2048_S1x2048 := by
  dsimp only [V, hostOps0]; after_results; rfl

/-- The input gate's bias block: columns `512·(t/8%4) …` of the bias. -/
theorem bi_blk (c : Dev nD) (t : Fin cfg0.N) (z : Fin 1) (q : Fin 512) (cc : Fin 2048)
    (hc : cc.val = 512 * (t.val / 8 % 4) + q.val) :
    (iblk m c 4 t : Vec F S1x512 .f32) (ix2 z q) = m ((c : Thread nD τ).loc main_arg5) (ix1 cc) := by
  have hz := z.isLt
  unfold iblk
  rw [View.read_apply]
  show V m c main_v0 _ = _
  rw [V_bi]
  refine shapeCast_apply _ _ _ _ ?_
  refine (Shape.rowMajor_val_one (d := ![2048]) (ix1 cc)).trans ?_
  refine Eq.trans ?_ (Shape.rowMajor_val_two (d := ![1, 2048]) _).symm
  show cc.val = (win0_4.index t 0 * 1 + 1 * z.val) * 2048 + (win0_4.index t 1 * 512 + 1 * q.val)
  rw [(idx_bias t).1.1, (idx_bias t).1.2, hc]; omega

theorem bf_blk (c : Dev nD) (t : Fin cfg0.N) (z : Fin 1) (q : Fin 512) (cc : Fin 2048)
    (hc : cc.val = 512 * (t.val / 8 % 4) + q.val) :
    (iblk m c 7 t : Vec F S1x512 .f32) (ix2 z q) = m ((c : Thread nD τ).loc main_arg8) (ix1 cc) := by
  have hz := z.isLt
  unfold iblk
  rw [View.read_apply]
  show V m c main_v1 _ = _
  rw [V_bf]
  refine shapeCast_apply _ _ _ _ ?_
  refine (Shape.rowMajor_val_one (d := ![2048]) (ix1 cc)).trans ?_
  refine Eq.trans ?_ (Shape.rowMajor_val_two (d := ![1, 2048]) _).symm
  show cc.val = (win0_7.index t 0 * 1 + 1 * z.val) * 2048 + (win0_7.index t 1 * 512 + 1 * q.val)
  rw [(idx_bias t).2.1.1, (idx_bias t).2.1.2, hc]; omega

theorem bc_blk (c : Dev nD) (t : Fin cfg0.N) (z : Fin 1) (q : Fin 512) (cc : Fin 2048)
    (hc : cc.val = 512 * (t.val / 8 % 4) + q.val) :
    (iblk m c 10 t : Vec F S1x512 .f32) (ix2 z q) = m ((c : Thread nD τ).loc main_arg11) (ix1 cc) := by
  have hz := z.isLt
  unfold iblk
  rw [View.read_apply]
  show V m c main_v2 _ = _
  rw [V_bc]
  refine shapeCast_apply _ _ _ _ ?_
  refine (Shape.rowMajor_val_one (d := ![2048]) (ix1 cc)).trans ?_
  refine Eq.trans ?_ (Shape.rowMajor_val_two (d := ![1, 2048]) _).symm
  show cc.val = (win0_10.index t 0 * 1 + 1 * z.val) * 2048 + (win0_10.index t 1 * 512 + 1 * q.val)
  rw [(idx_bias t).2.2.1.1, (idx_bias t).2.2.1.2, hc]; omega

theorem bo_blk (c : Dev nD) (t : Fin cfg0.N) (z : Fin 1) (q : Fin 512) (cc : Fin 2048)
    (hc : cc.val = 512 * (t.val / 8 % 4) + q.val) :
    (iblk m c 13 t : Vec F S1x512 .f32) (ix2 z q) = m ((c : Thread nD τ).loc main_arg14) (ix1 cc) := by
  have hz := z.isLt
  unfold iblk
  rw [View.read_apply]
  show V m c main_v3 _ = _
  rw [V_bo]
  refine shapeCast_apply _ _ _ _ ?_
  refine (Shape.rowMajor_val_one (d := ![2048]) (ix1 cc)).trans ?_
  refine Eq.trans ?_ (Shape.rowMajor_val_two (d := ![1, 2048]) _).symm
  show cc.val = (win0_13.index t 0 * 1 + 1 * z.val) * 2048 + (win0_13.index t 1 * 512 + 1 * q.val)
  rw [(idx_bias t).2.2.2.1, (idx_bias t).2.2.2.2, hc]; omega

end Cert.KernelIdeal.Blocks

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.PayloadAt.lean ====
/-
  The kernel body's pure values read at one element, at the extended reals.

  Each value the blocked LSTM body stores is a term over the blocks it has read. At row `p`, column `q`:
  • a gate accumulator's update (one per gate, four in all) is the accumulator there plus the tile's two partial
    contractions, `s[p,q] + (∑ₖ x₀[p,k]·w₀[k,q] + ∑ₖ x₁[p,k]·w₁[k,q])`, `k` over the tile's 256 positions: a change of
    float format is the identity on extended reals, a product accumulated into zero is the bare sum over the
    contraction's positions, and those positions are the numbers below 256, the left operand read along its row and
    the right along its column;
  • the four initial accumulators are zero;
  • the next cell state is `σ(a_f + b_f)·c + σ(a_i + b_i)·tanh(a_c + b_c)` and the next hidden state
    `σ(a_o + b_o)·tanh(cell)`, each bias a single row `b[0,q]` read at every row `p`.
-/
import proofs.«159235_j16183436772221_1_alg».proof.Proof.Gen.KernelIdeal.Skeleton
import proofs.«159235_j16183436772221_1_alg».proof.Proof.LibContraction
import Idealize.ShloMosaic.Lib.ValueLayout
import Idealize.ShloMosaic.Lib.Pipeline.Value
import Idealize.ShloMosaic.Lib.ValueIdx
import Idealize.ShloMosaic.PureOps.Ideal.Laws

noncomputable section

open scoped BigOperators

namespace Cert.Lstm.Pay

open Cert.KernelIdeal Cert.KernelIdeal.Gen Idealize.ShloMosaic Idealize.ShloMosaic.ValueIdx

/-- The left operand's row is the result's row, at every position of the contraction. -/
private theorem lhs_row (j : S512x512.Idx) (k : dot_S512x256_S256x512_S512x512_1_0_0_1_n_n.contr.Idx) :
    (dot_S512x256_S256x512_S512x512_1_0_0_1_n_n.lhsIdx j k 0).val = (j 0).val :=
  Cert.Lib.Contraction.lhs_free dot_S512x256_S256x512_S512x512_1_0_0_1_n_n rfl rfl j k (by decide)

/-- The left operand's column is the position. -/
private theorem lhs_pos (j : S512x512.Idx) (i : Fin 256) :
    (dot_S512x256_S256x512_S512x512_1_0_0_1_n_n.lhsIdx j
      ((Cert.Lib.Contraction.contrFin dot_S512x256_S256x512_S512x512_1_0_0_1_n_n (cl := 1) rfl 256 rfl).symm i) 1).val = i.val :=
  Cert.Lib.Contraction.lhs_contracted dot_S512x256_S256x512_S512x512_1_0_0_1_n_n (cl := 1) rfl 256 rfl j i

/-- The right operand's row is the position. -/
private theorem rhs_pos (j : S512x512.Idx) (i : Fin 256) :
    (dot_S512x256_S256x512_S512x512_1_0_0_1_n_n.rhsIdx j
      ((Cert.Lib.Contraction.contrFin dot_S512x256_S256x512_S512x512_1_0_0_1_n_n (cl := 1) rfl 256 rfl).symm i) 0).val = i.val :=
  Cert.Lib.Contraction.rhs_contracted dot_S512x256_S256x512_S512x512_1_0_0_1_n_n (cl := 1) (cr := 0) rfl rfl 256 rfl j i

/-- The right operand's column is the result's column, at every position of the contraction. -/
private theorem rhs_col (j : S512x512.Idx) (k : dot_S512x256_S256x512_S512x512_1_0_0_1_n_n.contr.Idx) :
    (dot_S512x256_S256x512_S512x512_1_0_0_1_n_n.rhsIdx j k 1).val = (j 1).val :=
  Cert.Lib.Contraction.rhs_free dot_S512x256_S256x512_S512x512_1_0_0_1_n_n (nl := 0) (nr := 1) rfl rfl rfl rfl j k (by decide)

/-- A product of a 512 × 256 block with a 256 × 512 block into the zero accumulator, read at row `p`, column `q`: the
    sum over the 256 positions of the row's entries times the column's. -/
private theorem mm_at (a : FVec Ideal S512x256 .bf16) (b : FVec Ideal S256x512 .bf16) (p q : Fin 512) :
    matmul (F := Ideal) dot_S512x256_S256x512_S512x512_1_0_0_1_n_n none a b (constant (F := Ideal) S512x512 .f32 0x00000000#32) (ix2 p q)
      = ∑ kk : Fin 256, a (ix2 p kk) * b (ix2 kk q) := by
  simp only [matmul]
  rw [Ideal.matmul_constant_zero_apply,
    Cert.Lib.Contraction.sum_contr dot_S512x256_S256x512_S512x512_1_0_0_1_n_n (cl := 1) rfl 256 rfl]
  refine Finset.sum_congr rfl fun kk _ => ?_
  have el : dot_S512x256_S256x512_S512x512_1_0_0_1_n_n.lhsIdx (ix2 p q)
      ((Cert.Lib.Contraction.contrFin dot_S512x256_S256x512_S512x512_1_0_0_1_n_n (cl := 1) rfl 256 rfl).symm kk) = ix2 p kk :=
    funext fun ax => Fin.ext (by
      match ax with
      | ⟨0, _⟩ => exact lhs_row _ _
      | ⟨1, _⟩ => exact lhs_pos _ _)
  have er : dot_S512x256_S256x512_S512x512_1_0_0_1_n_n.rhsIdx (ix2 p q)
      ((Cert.Lib.Contraction.contrFin dot_S512x256_S256x512_S512x512_1_0_0_1_n_n (cl := 1) rfl 256 rfl).symm kk) = ix2 kk q :=
    funext fun ax => Fin.ext (by
      match ax with
      | ⟨0, _⟩ => exact rhs_pos _ _
      | ⟨1, _⟩ => exact rhs_col _ _)
  rw [el, er]

/-- One tile's update of an accumulator: the accumulator plus the tile's two partial contractions. -/
abbrev upd (x0 x1 : Vec Ideal S512x256 .f32) (s : Vec Ideal S512x512 .f32) (w0 w1 : Vec Ideal S256x512 .f32)
    (p q : Fin 512) : EReal :=
  s (ix2 p q) + ((∑ kk : Fin 256, x0 (ix2 p kk) * w0 (ix2 kk q)) + ∑ kk : Fin 256, x1 (ix2 p kk) * w1 (ix2 kk q))

/-- The input gate's accumulator after a tile, as stored. -/
theorem pay12_at (x0 x1 : Vec Ideal S512x256 .f32) (s : Vec Ideal S512x512 .f32) (w0 w1 : Vec Ideal S256x512 .f32)
    (p q : Fin 512) : k0_pay12 (F := Ideal) x0 x1 s w0 w1 (ix2 p q) = upd x0 x1 s w0 w1 p q := by
  unfold k0_pay12 k0_pay10 k0_pay11
  simp only [shapeCast_self, addf_apply, mm_at, truncf_apply]

/-- The forget gate's accumulator after a tile, as stored. -/
theorem pay13_at (x0 x1 : Vec Ideal S512x256 .f32) (s : Vec Ideal S512x512 .f32) (w0 w1 : Vec Ideal S256x512 .f32)
    (p q : Fin 512) : k0_pay1 (F := Ideal) (k0_pay13 x0 x1 s w0 w1) (ix2 p q) = upd x0 x1 s w0 w1 p q := by
  unfold k0_pay1 k0_pay13 k0_pay10 k0_pay11
  simp only [shapeCast_self, addf_apply, mm_at, truncf_apply]

/-- The candidate's accumulator after a tile, as stored. -/
theorem pay2_at (x0 x1 : Vec Ideal S512x256 .f32) (s : Vec Ideal S512x512 .f32) (w0 w1 : Vec Ideal S256x512 .f32)
    (p q : Fin 512) : k0_pay2 (F := Ideal) (k0_pay10 x0) (k0_pay11 x1) s w0 w1 (ix2 p q) = upd x0 x1 s w0 w1 p q := by
  unfold k0_pay2 k0_pay10 k0_pay11
  simp only [shapeCast_self, addf_apply, mm_at, truncf_apply]

/-- The output gate's accumulator after a tile, as stored. -/
theorem pay3_at (x0 x1 : Vec Ideal S512x256 .f32) (s : Vec Ideal S512x512 .f32) (w0 w1 : Vec Ideal S256x512 .f32)
    (p q : Fin 512) : k0_pay3 (F := Ideal) (k0_pay10 x0) (k0_pay11 x1) s w0 w1 (ix2 p q) = upd x0 x1 s w0 w1 p q := by
  unfold k0_pay3 k0_pay10 k0_pay11
  simp only [shapeCast_self, addf_apply, mm_at, truncf_apply]

/-- The first accumulator starts at zero. -/
theorem pay6_at (p q : Fin 512) : k0_pay6 (F := Ideal) (ix2 p q) = 0 := by
  unfold k0_pay6
  simp only [shapeCast_self, broadcast_apply]
  exact Ideal.ofBits_zero_f32

/-- The second accumulator starts at zero. -/
theorem pay7_at (p q : Fin 512) : k0_pay7 (F := Ideal) (ix2 p q) = 0 := by
  unfold k0_pay7
  simp only [shapeCast_self, broadcast_apply]
  exact Ideal.ofBits_zero_f32

/-- The third accumulator starts at zero. -/
theorem pay8_at (p q : Fin 512) : k0_pay8 (F := Ideal) (ix2 p q) = 0 := by
  unfold k0_pay8
  simp only [shapeCast_self, broadcast_apply]
  exact Ideal.ofBits_zero_f32

/-- The fourth accumulator starts at zero. -/
theorem pay9_at (p q : Fin 512) : k0_pay9 (F := Ideal) (ix2 p q) = 0 := by
  unfold k0_pay9
  simp only [shapeCast_self, broadcast_apply]
  exact Ideal.ofBits_zero_f32

/-- The next cell state: the forget gate times the old cell state plus the input gate times the squashed candidate,
    each gate the logistic function of its accumulator plus its bias row. -/
theorem pay4_at (ai : Vec Ideal S512x512 .f32) (bi : Vec Ideal S1x512 .f32) (af : Vec Ideal S512x512 .f32)
    (bf : Vec Ideal S1x512 .f32) (ac : Vec Ideal S512x512 .f32) (bc : Vec Ideal S1x512 .f32)
    (cx : Vec Ideal S512x512 .f32) (p q : Fin 512) :
    k0_pay4 (F := Ideal) ai bi af bf ac bc cx (ix2 p q)
      = Ideal.logistic (af (ix2 p q) + bf (ix2 0 q)) * cx (ix2 p q)
        + Ideal.logistic (ai (ix2 p q) + bi (ix2 0 q)) * Ideal.tanh (ac (ix2 p q) + bc (ix2 0 q)) := by
  unfold k0_pay4
  simp only [shapeCast_self, addf_apply, mulf_apply, logistic, tanh, broadcastTo_1b_ab_apply, Ideal.logistic_def,
    Ideal.tanh_def]

/-- The next hidden state: the output gate times the squashed next cell state. -/
theorem pay5_at (ai : Vec Ideal S512x512 .f32) (bi : Vec Ideal S1x512 .f32) (af : Vec Ideal S512x512 .f32)
    (bf : Vec Ideal S1x512 .f32) (ao : Vec Ideal S512x512 .f32) (bo : Vec Ideal S1x512 .f32)
    (ac : Vec Ideal S512x512 .f32) (bc : Vec Ideal S1x512 .f32) (cx : Vec Ideal S512x512 .f32) (p q : Fin 512) :
    k0_pay5 (F := Ideal) ai bi af bf ao bo ac bc cx (ix2 p q)
      = Ideal.logistic (ao (ix2 p q) + bo (ix2 0 q))
        * Ideal.tanh (k0_pay4 (F := Ideal) ai bi af bf ac bc cx (ix2 p q)) := by
  unfold k0_pay5
  simp only [shapeCast_self, addf_apply, mulf_apply, logistic, tanh, broadcastTo_1b_ab_apply, Ideal.logistic_def,
    Ideal.tanh_def]

end Cert.Lstm.Pay

end
-- ==== Proof.LstmSpec.lean ====
/-
  The LSTM cell both programs compute, as functions of the argument arrays read at extended reals.

  A gate's pre-activation at row `r`, column `c` is `(∑ₖ x[r,k]·Wx[k,c]) + (∑ₖ h[r,k]·Wh[k,c]) + b[c]`, the two
  contractions over all 2048 positions. The next cell state is `σ(f)·c_x + σ(i)·tanh(g)` and the next hidden state
  `σ(o)·tanh(cell)`, with `σ z = 1 / (1 + exp (-z))`.

  The blocked program reaches a pre-activation's two contractions tile by tile: the 2048 positions are cut into eight
  tiles of 256, each tile contributes the sum of its two partial contractions, and the contributions are added up
  starting from zero. Addition of extended reals is commutative and associative, so the tiles' sums regroup into the
  two whole contractions (`gate_tiles`); no finiteness is used.
-/
import Idealize.ShloMosaic.PureOps.Ideal
import Idealize.ShloMosaic.Lib.ValueIdx

noncomputable section

open scoped BigOperators

namespace Cert.Lstm

open Idealize.ShloMosaic Idealize.ShloMosaic.ValueIdx

/-- A batch of 4096 rows of 2048 features. -/
abbrev Act : Type := (⟨2, ![4096, 2048]⟩ : Shape).Idx → EReal
/-- A 2048 × 2048 weight matrix. -/
abbrev Wgt : Type := (⟨2, ![2048, 2048]⟩ : Shape).Idx → EReal
/-- A bias over the 2048 hidden features. -/
abbrev Bias : Type := (⟨1, ![2048]⟩ : Shape).Idx → EReal

/-- The contraction of row `r` of `x` with column `c` of `w` over all 2048 positions. -/
def contr (x : Act) (w : Wgt) (r : Fin 4096) (c : Fin 2048) : EReal :=
  ∑ k : Fin 2048, x (ix2 r k) * w (ix2 k c)

/-- A gate's pre-activation: the input's and the hidden state's contractions, then the bias. -/
def pre (x h : Act) (wx wh : Wgt) (b : Bias) (r : Fin 4096) (c : Fin 2048) : EReal :=
  contr x wx r c + contr h wh r c + b (ix1 c)

/-- The next cell state: forget gate times the old cell state plus input gate times the candidate. -/
def cellNext (x h cx : Act) (wxi whi : Wgt) (bi : Bias) (wxf whf : Wgt) (bf : Bias) (wxc whc : Wgt) (bc : Bias)
    (r : Fin 4096) (c : Fin 2048) : EReal :=
  Ideal.logistic (pre x h wxf whf bf r c) * cx (ix2 r c)
    + Ideal.logistic (pre x h wxi whi bi r c) * Ideal.tanh (pre x h wxc whc bc r c)

/-- The next hidden state: output gate times the squashed next cell state. -/
def hidNext (x h cx : Act) (wxi whi : Wgt) (bi : Bias) (wxf whf : Wgt) (bf : Bias) (wxc whc : Wgt) (bc : Bias)
    (wxo who : Wgt) (bo : Bias) (r : Fin 4096) (c : Fin 2048) : EReal :=
  Ideal.logistic (pre x h wxo who bo r c) * Ideal.tanh (cellNext x h cx wxi whi bi wxf whf bf wxc whc bc r c)

/-- The position `n` names among the 2048, wrapped so that it is defined for every natural number. -/
def pos (n : ℕ) : Fin 2048 := ⟨n % 2048, Nat.mod_lt _ (by decide)⟩

theorem pos_val_of_lt {n : ℕ} (h : n < 2048) : (pos n).val = n := Nat.mod_eq_of_lt h

/-- Tile `s` of a contraction: positions `256·s … 256·s + 255`. -/
def tile (x : Act) (w : Wgt) (r : Fin 4096) (c : Fin 2048) (s : ℕ) : EReal :=
  ∑ kk : Fin 256, x (ix2 r (pos (256 * s + kk.val))) * w (ix2 (pos (256 * s + kk.val)) c)

/-- A sum over the first `T·n` naturals is the sum over `n` consecutive runs of length `T`. -/
theorem sum_range_runs {M : Type*} [AddCommMonoid M] (f : ℕ → M) (T n : ℕ) :
    ∑ k ∈ Finset.range (T * n), f k = ∑ s ∈ Finset.range n, ∑ kk ∈ Finset.range T, f (T * s + kk) := by
  induction n with
  | zero => simp
  | succ n ih => rw [Nat.mul_succ, Finset.sum_range_add, ih, Finset.sum_range_succ]

/-- The eight tiles of a contraction add up to it. -/
theorem sum_tiles (x : Act) (w : Wgt) (r : Fin 4096) (c : Fin 2048) :
    ∑ s ∈ Finset.range 8, tile x w r c s = contr x w r c := by
  unfold contr tile
  have h1 : (∑ k : Fin 2048, x (ix2 r k) * w (ix2 k c))
      = ∑ k ∈ Finset.range (256 * 8), (fun n : ℕ => x (ix2 r (pos n)) * w (ix2 (pos n) c)) k := by
    rw [show (256 * 8 : ℕ) = 2048 from rfl, ← Fin.sum_univ_eq_sum_range]
    refine Finset.sum_congr rfl fun k _ => ?_
    have hk : pos k.val = k := Fin.ext (pos_val_of_lt k.isLt)
    simp only [hk]
  rw [h1, sum_range_runs]
  refine Finset.sum_congr rfl fun s _ => ?_
  exact Fin.sum_univ_eq_sum_range (fun kk : ℕ => x (ix2 r (pos (256 * s + kk))) * w (ix2 (pos (256 * s + kk)) c)) 256

/-- Starting from zero and adding, tile after tile, the input's and the hidden state's partial contractions gives the
    two whole contractions. -/
theorem gate_tiles (x h : Act) (wx wh : Wgt) (r : Fin 4096) (c : Fin 2048) :
    (0 : EReal) + ∑ s ∈ Finset.range (7 + 1), (tile x wx r c s + tile h wh r c s) = contr x wx r c + contr h wh r c := by
  rw [zero_add, Finset.sum_add_distrib, sum_tiles, sum_tiles]

/-- The float word of 1.0 denotes the real number one. -/
theorem ofBits_one_f32 : Ideal.ofBits .f32 0x3F800000#32 = 1 := by
  simp [Ideal.ofBits, Ideal.ieee, -EReal.coe_mul]; norm_num

/-- `1 / (1 + exp (-z))` is the logistic function, by definition. -/
theorem logistic_eq (z : EReal) : Ideal.div 1 (1 + Ideal.exp (-z)) = Ideal.logistic z := rfl

end Cert.Lstm

end
-- ==== Proof.Fold.lean ====
/-
  What each accumulator holds after the last tile of a run: the gate's two whole contractions.

  A run is the eight consecutive grid points that share a row-block and a column-block. At its first point an
  accumulator is set to zero plus the tile's contribution, at each later point to what it held plus the tile's
  contribution; the tile's contribution at entry (p, q) of the block is the sum over the tile's 256 positions of
  input × weight plus hidden state × weight. Read through the windows' rectangles these are the tiles of the two
  contractions of the argument arrays at row `512·(row-block) + p` and column `512·(column-block) + q`, and the
  eight tiles add up to the whole contractions (`Cert.Lstm.gate_tiles`). The fold is read once for an abstract
  accumulator (`fold_contr`) and then instantiated at the four gates.
-/
import proofs.«159235_j16183436772221_1_alg».proof.Proof.Gen.KernelIdeal.Value
import proofs.«159235_j16183436772221_1_alg».proof.Proof.Pieces
import proofs.«159235_j16183436772221_1_alg».proof.Proof.BlockReads
import proofs.«159235_j16183436772221_1_alg».proof.Proof.PayloadAt
import proofs.«159235_j16183436772221_1_alg».proof.Proof.LstmSpec

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.Pieces Cert.KernelIdeal.Blocks Cert.Lstm

/-- A tile's contribution to a gate's pre-activation at entry (p, q) of the block: the input's and the hidden
    state's partial contractions over the tile's 256 positions. -/
def addend (x h : Vec Ideal S512x256 .f32) (wx wh : Vec Ideal S256x512 .f32) (p q : Fin 512) : EReal :=
  (∑ kk : Fin 256, x (ix2 p kk) * wx (ix2 kk q)) + ∑ kk : Fin 256, h (ix2 p kk) * wh (ix2 kk q)

/-- One tile's update of an accumulator, read at an entry, is what it held plus the tile's contribution. -/
theorem upd_eq (x0 x1 : Vec Ideal S512x256 .f32) (s : Vec Ideal S512x512 .f32) (w0 w1 : Vec Ideal S256x512 .f32)
    (p q : Fin 512) : Cert.Lstm.Pay.upd x0 x1 s w0 w1 p q = s (ix2 p q) + addend x0 x1 w0 w1 p q := rfl

/-! ## The fold of an abstract accumulator over a run -/

section Generic

variable {N : ℕ}
variable (sc : (n : ℕ) → n < N → Vec Ideal S512x512 .f32 → Vec Ideal S512x512 .f32)
variable (bx bh : (n : ℕ) → n < N → Vec Ideal S512x256 .f32) (bwx bwh : (n : ℕ) → n < N → Vec Ideal S256x512 .f32)
variable (X H : Act) (WX WH : Wgt)

/-- Point `n`'s contribution at entry (p, q) (zero past the grid, where it is never used). -/
def addAt (n : ℕ) (p q : Fin 512) : EReal :=
  if h : n < N then addend (bx n h) (bh n h) (bwx n h) (bwh n h) p q else 0

/-- Tile `s` of the run that ends at the last-tile point `t` contributes tile `s` of the two contractions. -/
theorem addAt_eq (hN : N = 256)
    (hx : ∀ (n : ℕ) (hb : n < N) (p : Fin 512) (kk : Fin 256) (r : Fin 4096) (k : Fin 2048),
      r.val = 512 * (n / 32) + p.val → k.val = 256 * (n % 8) + kk.val → bx n hb (ix2 p kk) = X (ix2 r k))
    (hh : ∀ (n : ℕ) (hb : n < N) (p : Fin 512) (kk : Fin 256) (r : Fin 4096) (k : Fin 2048),
      r.val = 512 * (n / 32) + p.val → k.val = 256 * (n % 8) + kk.val → bh n hb (ix2 p kk) = H (ix2 r k))
    (hwx : ∀ (n : ℕ) (hb : n < N) (kk : Fin 256) (q : Fin 512) (k cc : Fin 2048),
      k.val = 256 * (n % 8) + kk.val → cc.val = 512 * (n / 8 % 4) + q.val → bwx n hb (ix2 kk q) = WX (ix2 k cc))
    (hwh : ∀ (n : ℕ) (hb : n < N) (kk : Fin 256) (q : Fin 512) (k cc : Fin 2048),
      k.val = 256 * (n % 8) + kk.val → cc.val = 512 * (n / 8 % 4) + q.val → bwh n hb (ix2 kk q) = WH (ix2 k cc))
    (t : ℕ) (ht : t < N) (h7 : t % 8 = 7) (s : ℕ) (hs : s < 7 + 1) (p q : Fin 512) (r : Fin 4096) (cc : Fin 2048)
    (hr : r.val = 512 * (t / 32) + p.val) (hc : cc.val = 512 * (t / 8 % 4) + q.val) :
    addAt bx bh bwx bwh (8 * (t / 8) + s) p q = tile X WX r cc s + tile H WH r cc s := by
  have hn : 8 * (t / 8) + s < N := by omega
  unfold addAt
  rw [dif_pos hn]
  unfold addend tile
  refine congrArg₂ (· + ·) (Finset.sum_congr rfl fun kk _ => ?_) (Finset.sum_congr rfl fun kk _ => ?_)
  · have hkk := kk.isLt
    have hpos : (pos (256 * s + kk.val)).val = 256 * s + kk.val := pos_val_of_lt (by omega)
    rw [hx _ hn p kk r (pos (256 * s + kk.val)) (by omega) (by omega),
      hwx _ hn kk q (pos (256 * s + kk.val)) cc (by omega) (by omega)]
  · have hkk := kk.isLt
    have hpos : (pos (256 * s + kk.val)).val = 256 * s + kk.val := pos_val_of_lt (by omega)
    rw [hh _ hn p kk r (pos (256 * s + kk.val)) (by omega) (by omega),
      hwh _ hn kk q (pos (256 * s + kk.val)) cc (by omega) (by omega)]

/-- THE FOLD. An accumulator that a run's first point sets to zero plus the tile's contribution and each later
    point to what it held plus the tile's contribution holds, after the run's last point, the gate's two whole
    contractions at the row and column its entry names. -/
theorem fold_contr (hN : N = 256)
    (hfirst : ∀ (n : ℕ) (hb : n < N), n % 8 = 0 → ∀ (acc : Vec Ideal S512x512 .f32) (p q : Fin 512),
      sc n hb acc (ix2 p q) = 0 + addend (bx n hb) (bh n hb) (bwx n hb) (bwh n hb) p q)
    (hlater : ∀ (n : ℕ) (hb : n < N), ¬n % 8 = 0 → ∀ (acc : Vec Ideal S512x512 .f32) (p q : Fin 512),
      sc n hb acc (ix2 p q) = acc (ix2 p q) + addend (bx n hb) (bh n hb) (bwx n hb) (bwh n hb) p q)
    (hx : ∀ (n : ℕ) (hb : n < N) (p : Fin 512) (kk : Fin 256) (r : Fin 4096) (k : Fin 2048),
      r.val = 512 * (n / 32) + p.val → k.val = 256 * (n % 8) + kk.val → bx n hb (ix2 p kk) = X (ix2 r k))
    (hh : ∀ (n : ℕ) (hb : n < N) (p : Fin 512) (kk : Fin 256) (r : Fin 4096) (k : Fin 2048),
      r.val = 512 * (n / 32) + p.val → k.val = 256 * (n % 8) + kk.val → bh n hb (ix2 p kk) = H (ix2 r k))
    (hwx : ∀ (n : ℕ) (hb : n < N) (kk : Fin 256) (q : Fin 512) (k cc : Fin 2048),
      k.val = 256 * (n % 8) + kk.val → cc.val = 512 * (n / 8 % 4) + q.val → bwx n hb (ix2 kk q) = WX (ix2 k cc))
    (hwh : ∀ (n : ℕ) (hb : n < N) (kk : Fin 256) (q : Fin 512) (k cc : Fin 2048),
      k.val = 256 * (n % 8) + kk.val → cc.val = 512 * (n / 8 % 4) + q.val → bwh n hb (ix2 kk q) = WH (ix2 k cc))
    (junk : Vec Ideal S512x512 .f32) (t : ℕ) (ht : t < N) (h7 : t % 8 = 7) (hb' : 8 * (t / 8) + t % 8 < N)
    (p q : Fin 512) (r : Fin 4096) (cc : Fin 2048)
    (hr : r.val = 512 * (t / 32) + p.val) (hc : cc.val = 512 * (t / 8 % 4) + q.val) :
    Pipeline.accAt (fun n h => sc n h junk) sc (8 * (t / 8)) (t % 8) hb' (ix2 p q)
      = contr X WX r cc + contr H WH r cc := by
  have key := Pipeline.accAt_add_apply (N := N) (fun n h => sc n h junk) sc
    (fun _ => (0 : EReal)) (fun n (y : S512x512.Idx) => addAt bx bh bwx bwh n (y 0) (y 1)) (8 * (t / 8)) 7
    (fun h y => by
      obtain ⟨p, q, rfl⟩ : ∃ (p q : Fin 512), y = ix2 p q := ⟨y 0, y 1, eq_ix2 y⟩
      show sc (8 * (t / 8)) h junk (ix2 p q) = 0 + addAt bx bh bwx bwh (8 * (t / 8)) p q
      rw [hfirst _ h (by omega) junk p q]
      unfold addAt
      rw [dif_pos h])
    (fun n h acc y hlt hle => by
      obtain ⟨p, q, rfl⟩ : ∃ (p q : Fin 512), y = ix2 p q := ⟨y 0, y 1, eq_ix2 y⟩
      show sc n h acc (ix2 p q) = acc (ix2 p q) + addAt bx bh bwx bwh n p q
      rw [hlater n h (by omega) acc p q]
      unfold addAt
      rw [dif_pos h])
    (t % 8) (by omega) hb' (ix2 p q)
  rw [key, h7, ← gate_tiles]
  refine congrArg (0 + ·) (Finset.sum_congr rfl fun s hs => ?_)
  exact addAt_eq bx bh bwx bwh X H WX WH hN hx hh hwx hwh t ht h7 s (Finset.mem_range.mp hs) p q r cc hr hc

end Generic

/-! ## The four accumulators -/

variable (m : (ℓ : Loc nD τ sig) → Buf (Elt Ideal) ℓ)

/-- The input gate's accumulator at a first tile. -/
theorem scI_first (c : Dev nD) (n : ℕ) (hb : n < cfg0.N) (h0 : n % 8 = 0) (acc : Vec Ideal S512x512 .f32) :
    Value.scAt0_0 m c n hb acc
      = updI (iblk m c 0 ⟨n, hb⟩) (iblk m c 1 ⟨n, hb⟩) (k0_pay6 (F := Ideal)) (iblk m c 2 ⟨n, hb⟩) (iblk m c 3 ⟨n, hb⟩) := by
  unfold Value.scAt0_0
  rw [dif_pos h0, dif_neg (by omega)]
  exact sA0 ..

/-- The input gate's accumulator at a later tile. -/
theorem scI_later (c : Dev nD) (n : ℕ) (hb : n < cfg0.N) (h0 : ¬n % 8 = 0) (acc : Vec Ideal S512x512 .f32) :
    Value.scAt0_0 m c n hb acc
      = updI (iblk m c 0 ⟨n, hb⟩) (iblk m c 1 ⟨n, hb⟩) acc (iblk m c 2 ⟨n, hb⟩) (iblk m c 3 ⟨n, hb⟩) := by
  unfold Value.scAt0_0
  rw [dif_neg h0]
  by_cases h1 : n % 8 = 7
  · rw [dif_pos h1]; exact sC0 ..
  · rw [dif_neg h1]; exact sB0 ..

/-- The forget gate's accumulator at a first tile. -/
theorem scF_first (c : Dev nD) (n : ℕ) (hb : n < cfg0.N) (h0 : n % 8 = 0) (acc : Vec Ideal S512x512 .f32) :
    Value.scAt0_1 m c n hb acc
      = updF (iblk m c 0 ⟨n, hb⟩) (iblk m c 1 ⟨n, hb⟩) (k0_pay7 (F := Ideal)) (iblk m c 5 ⟨n, hb⟩) (iblk m c 6 ⟨n, hb⟩) := by
  unfold Value.scAt0_1
  rw [dif_pos h0, dif_neg (by omega)]
  exact sA1 ..

/-- The forget gate's accumulator at a later tile. -/
theorem scF_later (c : Dev nD) (n : ℕ) (hb : n < cfg0.N) (h0 : ¬n % 8 = 0) (acc : Vec Ideal S512x512 .f32) :
    Value.scAt0_1 m c n hb acc
      = updF (iblk m c 0 ⟨n, hb⟩) (iblk m c 1 ⟨n, hb⟩) acc (iblk m c 5 ⟨n, hb⟩) (iblk m c 6 ⟨n, hb⟩) := by
  unfold Value.scAt0_1
  rw [dif_neg h0]
  by_cases h1 : n % 8 = 7
  · rw [dif_pos h1]; exact sC1 ..
  · rw [dif_neg h1]; exact sB1 ..

/-- The candidate's accumulator at a first tile. -/
theorem scC_first (c : Dev nD) (n : ℕ) (hb : n < cfg0.N) (h0 : n % 8 = 0) (acc : Vec Ideal S512x512 .f32) :
    Value.scAt0_2 m c n hb acc
      = updC (iblk m c 0 ⟨n, hb⟩) (iblk m c 1 ⟨n, hb⟩) (k0_pay8 (F := Ideal)) (iblk m c 8 ⟨n, hb⟩) (iblk m c 9 ⟨n, hb⟩) := by
  unfold Value.scAt0_2
  rw [dif_pos h0, dif_neg (by omega)]
  exact sA2 ..

/-- The candidate's accumulator at a later tile. -/
theorem scC_later (c : Dev nD) (n : ℕ) (hb : n < cfg0.N) (h0 : ¬n % 8 = 0) (acc : Vec Ideal S512x512 .f32) :
    Value.scAt0_2 m c n hb acc
      = updC (iblk m c 0 ⟨n, hb⟩) (iblk m c 1 ⟨n, hb⟩) acc (iblk m c 8 ⟨n, hb⟩) (iblk m c 9 ⟨n, hb⟩) := by
  unfold Value.scAt0_2
  rw [dif_neg h0]
  by_cases h1 : n % 8 = 7
  · rw [dif_pos h1]; exact sC2 ..
  · rw [dif_neg h1]; exact sB2 ..

/-- The output gate's accumulator at a first tile. -/
theorem scO_first (c : Dev nD) (n : ℕ) (hb : n < cfg0.N) (h0 : n % 8 = 0) (acc : Vec Ideal S512x512 .f32) :
    Value.scAt0_3 m c n hb acc
      = updO (iblk m c 0 ⟨n, hb⟩) (iblk m c 1 ⟨n, hb⟩) (k0_pay9 (F := Ideal)) (iblk m c 11 ⟨n, hb⟩) (iblk m c 12 ⟨n, hb⟩) := by
  unfold Value.scAt0_3
  rw [dif_pos h0, dif_neg (by omega)]
  exact sA3 ..

/-- The output gate's accumulator at a later tile. -/
theorem scO_later (c : Dev nD) (n : ℕ) (hb : n < cfg0.N) (h0 : ¬n % 8 = 0) (acc : Vec Ideal S512x512 .f32) :
    Value.scAt0_3 m c n hb acc
      = updO (iblk m c 0 ⟨n, hb⟩) (iblk m c 1 ⟨n, hb⟩) acc (iblk m c 11 ⟨n, hb⟩) (iblk m c 12 ⟨n, hb⟩) := by
  unfold Value.scAt0_3
  rw [dif_neg h0]
  by_cases h1 : n % 8 = 7
  · rw [dif_pos h1]; exact sC3 ..
  · rw [dif_neg h1]; exact sB3 ..

/-- After a last-tile point the input gate's accumulator holds `x·W_xi + h·W_hi` at the entry's row and column. -/
theorem accI_contr (c : Dev nD) (t : Fin cfg0.N) (h7 : t.val % 8 = 7) (p q : Fin 512) (r : Fin 4096) (cc : Fin 2048)
    (hr : r.val = 512 * (t.val / 32) + p.val) (hc : cc.val = 512 * (t.val / 8 % 4) + q.val) :
    (outsAt0 m c t.val t.isLt).2.2.1 (ix2 p q)
      = contr (m ((c : Thread nD τ).loc main_arg0)) (m ((c : Thread nD τ).loc main_arg3)) r cc
        + contr (m ((c : Thread nD τ).loc main_arg1)) (m ((c : Thread nD τ).loc main_arg4)) r cc := by
  rw [Value.soutsAt0_0_eq]
  exact fold_contr (Value.scAt0_0 m c) (fun n h => iblk m c 0 ⟨n, h⟩) (fun n h => iblk m c 1 ⟨n, h⟩)
    (fun n h => iblk m c 2 ⟨n, h⟩) (fun n h => iblk m c 3 ⟨n, h⟩) _ _ _ _ N_0
    (fun n hb h0 acc p q => by
      rw [scI_first m c n hb h0 acc]; unfold updI
      rw [Cert.Lstm.Pay.pay12_at, upd_eq, Cert.Lstm.Pay.pay6_at])
    (fun n hb h0 acc p q => by
      rw [scI_later m c n hb h0 acc]; unfold updI
      rw [Cert.Lstm.Pay.pay12_at, upd_eq])
    (fun n hb p kk r k hr hk => x_blk m c ⟨n, hb⟩ p kk r k hr hk)
    (fun n hb p kk r k hr hk => h_blk m c ⟨n, hb⟩ p kk r k hr hk)
    (fun n hb kk q k cc hk hc => wxi_blk m c ⟨n, hb⟩ kk q k cc hk hc)
    (fun n hb kk q k cc hk hc => whi_blk m c ⟨n, hb⟩ kk q k cc hk hc)
    _ t.val t.isLt h7 _ p q r cc hr hc

/-- The forget gate's: `x·W_xf + h·W_hf`. -/
theorem accF_contr (c : Dev nD) (t : Fin cfg0.N) (h7 : t.val % 8 = 7) (p q : Fin 512) (r : Fin 4096) (cc : Fin 2048)
    (hr : r.val = 512 * (t.val / 32) + p.val) (hc : cc.val = 512 * (t.val / 8 % 4) + q.val) :
    (outsAt0 m c t.val t.isLt).2.2.2.1 (ix2 p q)
      = contr (m ((c : Thread nD τ).loc main_arg0)) (m ((c : Thread nD τ).loc main_arg6)) r cc
        + contr (m ((c : Thread nD τ).loc main_arg1)) (m ((c : Thread nD τ).loc main_arg7)) r cc := by
  rw [Value.soutsAt0_1_eq]
  exact fold_contr (Value.scAt0_1 m c) (fun n h => iblk m c 0 ⟨n, h⟩) (fun n h => iblk m c 1 ⟨n, h⟩)
    (fun n h => iblk m c 5 ⟨n, h⟩) (fun n h => iblk m c 6 ⟨n, h⟩) _ _ _ _ N_0
    (fun n hb h0 acc p q => by
      rw [scF_first m c n hb h0 acc]; unfold updF
      rw [Cert.Lstm.Pay.pay13_at, upd_eq, Cert.Lstm.Pay.pay7_at])
    (fun n hb h0 acc p q => by
      rw [scF_later m c n hb h0 acc]; unfold updF
      rw [Cert.Lstm.Pay.pay13_at, upd_eq])
    (fun n hb p kk r k hr hk => x_blk m c ⟨n, hb⟩ p kk r k hr hk)
    (fun n hb p kk r k hr hk => h_blk m c ⟨n, hb⟩ p kk r k hr hk)
    (fun n hb kk q k cc hk hc => wxf_blk m c ⟨n, hb⟩ kk q k cc hk hc)
    (fun n hb kk q k cc hk hc => whf_blk m c ⟨n, hb⟩ kk q k cc hk hc)
    _ t.val t.isLt h7 _ p q r cc hr hc

/-- The candidate's: `x·W_xc + h·W_hc`. -/
theorem accC_contr (c : Dev nD) (t : Fin cfg0.N) (h7 : t.val % 8 = 7) (p q : Fin 512) (r : Fin 4096) (cc : Fin 2048)
    (hr : r.val = 512 * (t.val / 32) + p.val) (hc : cc.val = 512 * (t.val / 8 % 4) + q.val) :
    (outsAt0 m c t.val t.isLt).2.2.2.2.1 (ix2 p q)
      = contr (m ((c : Thread nD τ).loc main_arg0)) (m ((c : Thread nD τ).loc main_arg9)) r cc
        + contr (m ((c : Thread nD τ).loc main_arg1)) (m ((c : Thread nD τ).loc main_arg10)) r cc := by
  rw [Value.soutsAt0_2_eq]
  exact fold_contr (Value.scAt0_2 m c) (fun n h => iblk m c 0 ⟨n, h⟩) (fun n h => iblk m c 1 ⟨n, h⟩)
    (fun n h => iblk m c 8 ⟨n, h⟩) (fun n h => iblk m c 9 ⟨n, h⟩) _ _ _ _ N_0
    (fun n hb h0 acc p q => by
      rw [scC_first m c n hb h0 acc]; unfold updC
      rw [Cert.Lstm.Pay.pay2_at, upd_eq, Cert.Lstm.Pay.pay8_at])
    (fun n hb h0 acc p q => by
      rw [scC_later m c n hb h0 acc]; unfold updC
      rw [Cert.Lstm.Pay.pay2_at, upd_eq])
    (fun n hb p kk r k hr hk => x_blk m c ⟨n, hb⟩ p kk r k hr hk)
    (fun n hb p kk r k hr hk => h_blk m c ⟨n, hb⟩ p kk r k hr hk)
    (fun n hb kk q k cc hk hc => wxc_blk m c ⟨n, hb⟩ kk q k cc hk hc)
    (fun n hb kk q k cc hk hc => whc_blk m c ⟨n, hb⟩ kk q k cc hk hc)
    _ t.val t.isLt h7 _ p q r cc hr hc

/-- The output gate's: `x·W_xo + h·W_ho`. -/
theorem accO_contr (c : Dev nD) (t : Fin cfg0.N) (h7 : t.val % 8 = 7) (p q : Fin 512) (r : Fin 4096) (cc : Fin 2048)
    (hr : r.val = 512 * (t.val / 32) + p.val) (hc : cc.val = 512 * (t.val / 8 % 4) + q.val) :
    (outsAt0 m c t.val t.isLt).2.2.2.2.2 (ix2 p q)
      = contr (m ((c : Thread nD τ).loc main_arg0)) (m ((c : Thread nD τ).loc main_arg12)) r cc
        + contr (m ((c : Thread nD τ).loc main_arg1)) (m ((c : Thread nD τ).loc main_arg13)) r cc := by
  rw [Value.soutsAt0_3_eq]
  exact fold_contr (Value.scAt0_3 m c) (fun n h => iblk m c 0 ⟨n, h⟩) (fun n h => iblk m c 1 ⟨n, h⟩)
    (fun n h => iblk m c 11 ⟨n, h⟩) (fun n h => iblk m c 12 ⟨n, h⟩) _ _ _ _ N_0
    (fun n hb h0 acc p q => by
      rw [scO_first m c n hb h0 acc]; unfold updO
      rw [Cert.Lstm.Pay.pay3_at, upd_eq, Cert.Lstm.Pay.pay9_at])
    (fun n hb h0 acc p q => by
      rw [scO_later m c n hb h0 acc]; unfold updO
      rw [Cert.Lstm.Pay.pay3_at, upd_eq])
    (fun n hb p kk r k hr hk => x_blk m c ⟨n, hb⟩ p kk r k hr hk)
    (fun n hb p kk r k hr hk => h_blk m c ⟨n, hb⟩ p kk r k hr hk)
    (fun n hb kk q k cc hk hc => wxo_blk m c ⟨n, hb⟩ kk q k cc hk hc)
    (fun n hb kk q k cc hk hc => who_blk m c ⟨n, hb⟩ kk q k cc hk hc)
    _ t.val t.isLt h7 _ p q r cc hr hc

end Cert.KernelIdeal.Fold

end
-- ==== Proof.Final.lean ====
/-
  The two result arrays after the run: the next hidden state and the next cell state of the whole batch.

  A result block is written back at the last tile of its run only. There each updated accumulator holds its gate's two
  whole contractions at the entry's row and column (Fold), the bias blocks and the old cell state's block are
  rectangles of their arrays (BlockReads), and the body's closing arithmetic at an entry is the gate formula
  (PayloadAt): the block written back is the block of `hidNext` (of `cellNext`) of the argument arrays. The 8 × 4
  written blocks tile the 4096 × 2048 arrays, so each array ends holding that function everywhere.
-/
import proofs.«159235_j16183436772221_1_alg».proof.Proof.Fold

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Blocks Cert.KernelIdeal.Fold Cert.Lstm

variable (m : (ℓ : Loc nD τ sig) → Buf (Elt Ideal) ℓ) (ρ : Dev nD → PrngReg)

/-- The next hidden state of the whole batch, as contents of the first result array. -/
abbrev hidArr (c : Dev nD) : Buf (Elt Ideal) ((c : Thread nD τ).loc main_v4_0) := fun j =>
  hidNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (j 0) (j 1)

/-- The next cell state of the whole batch, as contents of the second result array. -/
abbrev cellArr (c : Dev nD) : Buf (Elt Ideal) ((c : Thread nD τ).loc main_v4_1) := fun j =>
  cellNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (j 0) (j 1)

/-! ## The updated accumulators at a last tile are what the point leaves in them -/

theorem newI (c : Dev nD) (t : Fin cfg0.N) (h0 : ¬t.val % 8 = 0) (h7 : t.val % 8 = 7) :
    updI (iblk m c 0 t) (iblk m c 1 t) (outsAt0 m c (t.val - 1) (Nat.lt_of_le_of_lt (Nat.sub_le _ _) t.isLt)).2.2.1
      (iblk m c 2 t) (iblk m c 3 t) = (outsAt0 m c t.val t.isLt).2.2.1 := by
  rw [outsAt0_C m c t h0 h7]; dsimp only; exact (sC0 ..).symm

theorem newF (c : Dev nD) (t : Fin cfg0.N) (h0 : ¬t.val % 8 = 0) (h7 : t.val % 8 = 7) :
    updF (iblk m c 0 t) (iblk m c 1 t) (outsAt0 m c (t.val - 1) (Nat.lt_of_le_of_lt (Nat.sub_le _ _) t.isLt)).2.2.2.1
      (iblk m c 5 t) (iblk m c 6 t) = (outsAt0 m c t.val t.isLt).2.2.2.1 := by
  rw [outsAt0_C m c t h0 h7]; dsimp only; exact (sC1 ..).symm

theorem newC (c : Dev nD) (t : Fin cfg0.N) (h0 : ¬t.val % 8 = 0) (h7 : t.val % 8 = 7) :
    updC (iblk m c 0 t) (iblk m c 1 t) (outsAt0 m c (t.val - 1) (Nat.lt_of_le_of_lt (Nat.sub_le _ _) t.isLt)).2.2.2.2.1
      (iblk m c 8 t) (iblk m c 9 t) = (outsAt0 m c t.val t.isLt).2.2.2.2.1 := by
  rw [outsAt0_C m c t h0 h7]; dsimp only; exact (sC2 ..).symm

theorem newO (c : Dev nD) (t : Fin cfg0.N) (h0 : ¬t.val % 8 = 0) (h7 : t.val % 8 = 7) :
    updO (iblk m c 0 t) (iblk m c 1 t) (outsAt0 m c (t.val - 1) (Nat.lt_of_le_of_lt (Nat.sub_le _ _) t.isLt)).2.2.2.2.2
      (iblk m c 11 t) (iblk m c 12 t) = (outsAt0 m c t.val t.isLt).2.2.2.2.2 := by
  rw [outsAt0_C m c t h0 h7]; dsimp only; exact (sC3 ..).symm

/-! ## One entry of the blocks written back -/

/-- The next cell state's block at an entry is `cellNext` at the row and column the entry names. -/
theorem cell_entry (c : Dev nD) (t : Fin cfg0.N) (h7 : t.val % 8 = 7) (y : S512x512.Idx) (i : S4096x2048.Idx)
    (hr : (i 0).val = 512 * (t.val / 32) + (y 0).val) (hc : (i 1).val = 512 * (t.val / 8 % 4) + (y 1).val) :
    k0_pay4 (F := Ideal) (outsAt0 m c t.val t.isLt).2.2.1 (iblk m c 4 t) (outsAt0 m c t.val t.isLt).2.2.2.1 (iblk m c 7 t)
        (outsAt0 m c t.val t.isLt).2.2.2.2.1 (iblk m c 10 t) (iblk m c 14 t) y
      = cellArr m c i := by
  obtain ⟨p, q, rfl⟩ : ∃ (p q : Fin 512), y = ix2 p q := ⟨y 0, y 1, eq_ix2 y⟩
  obtain ⟨r, cc, rfl⟩ : ∃ (r : Fin 4096) (cc : Fin 2048), i = ix2 r cc := ⟨i 0, i 1, eq_ix2 i⟩
  have hr' : r.val = 512 * (t.val / 32) + p.val := hr
  have hc' : cc.val = 512 * (t.val / 8 % 4) + q.val := hc
  rw [Cert.Lstm.Pay.pay4_at, accI_contr m c t h7 p q r cc hr' hc', accF_contr m c t h7 p q r cc hr' hc',
    accC_contr m c t h7 p q r cc hr' hc', bi_blk m c t 0 q cc hc', bf_blk m c t 0 q cc hc', bc_blk m c t 0 q cc hc',
    cx_blk m c t p q r cc hr' hc']
  rfl

/-- The next hidden state's block at an entry is `hidNext` there. -/
theorem hid_entry (c : Dev nD) (t : Fin cfg0.N) (h7 : t.val % 8 = 7) (y : S512x512.Idx) (i : S4096x2048.Idx)
    (hr : (i 0).val = 512 * (t.val / 32) + (y 0).val) (hc : (i 1).val = 512 * (t.val / 8 % 4) + (y 1).val) :
    k0_pay5 (F := Ideal) (outsAt0 m c t.val t.isLt).2.2.1 (iblk m c 4 t) (outsAt0 m c t.val t.isLt).2.2.2.1 (iblk m c 7 t)
        (outsAt0 m c t.val t.isLt).2.2.2.2.2 (iblk m c 13 t) (outsAt0 m c t.val t.isLt).2.2.2.2.1 (iblk m c 10 t)
        (iblk m c 14 t) y
      = hidArr m c i := by
  obtain ⟨p, q, rfl⟩ : ∃ (p q : Fin 512), y = ix2 p q := ⟨y 0, y 1, eq_ix2 y⟩
  obtain ⟨r, cc, rfl⟩ : ∃ (r : Fin 4096) (cc : Fin 2048), i = ix2 r cc := ⟨i 0, i 1, eq_ix2 i⟩
  have hr' : r.val = 512 * (t.val / 32) + p.val := hr
  have hc' : cc.val = 512 * (t.val / 8 % 4) + q.val := hc
  rw [Cert.Lstm.Pay.pay5_at, Cert.Lstm.Pay.pay4_at, accI_contr m c t h7 p q r cc hr' hc',
    accF_contr m c t h7 p q r cc hr' hc', accC_contr m c t h7 p q r cc hr' hc', accO_contr m c t h7 p q r cc hr' hc',
    bi_blk m c t 0 q cc hc', bf_blk m c t 0 q cc hc', bc_blk m c t 0 q cc hc', bo_blk m c t 0 q cc hc',
    cx_blk m c t p q r cc hr' hc']
  rfl

/-! ## What a flushing point writes back, and the cover -/

/-- A point that writes the first result's block back writes the block of `hidArr`. -/
theorem hid_flushed (c : Dev nD) (t : Fin cfg0.N) (hf : (cfg0.win 15).flush t = true) :
    (dats m 0 c).flushed 15 t = ((cfg0.win 15).blk t).view.read (Elt Ideal) (hidArr m c) := by
  have h7 : t.val % 8 = 7 := (flush0_15 t).mp hf
  have h0 : ¬t.val % 8 = 0 := by omega
  rw [Value.flushed15_C m c t h0 h7, oC15, newI m c t h0 h7, newF m c t h0 h7, newC m c t h0 h7, newO m c t h0 h7]
  funext j
  refine hid_entry m c t h7 j _ ?_ ?_
  · show win0_15.index t 0 * 512 + 1 * (j 0).val = 512 * (t.val / 32) + (j 0).val
    rw [(idx_out t).2.1.1]; omega
  · show win0_15.index t 1 * 512 + 1 * (j 1).val = 512 * (t.val / 8 % 4) + (j 1).val
    rw [(idx_out t).2.1.2]; omega

/-- A point that writes the second result's block back writes the block of `cellArr`. -/
theorem cell_flushed (c : Dev nD) (t : Fin cfg0.N) (hf : (cfg0.win 16).flush t = true) :
    (dats m 0 c).flushed 16 t = ((cfg0.win 16).blk t).view.read (Elt Ideal) (cellArr m c) := by
  have h7 : t.val % 8 = 7 := (flush0_16 t).mp hf
  have h0 : ¬t.val % 8 = 0 := by omega
  rw [Value.flushed16_C m c t h0 h7, oC16, newI m c t h0 h7, newF m c t h0 h7, newC m c t h0 h7]
  funext j
  refine cell_entry m c t h7 j _ ?_ ?_
  · show win0_16.index t 0 * 512 + 1 * (j 0).val = 512 * (t.val / 32) + (j 0).val
    rw [(idx_out t).2.2.1]; omega
  · show win0_16.index t 1 * 512 + 1 * (j 1).val = 512 * (t.val / 8 % 4) + (j 1).val
    rw [(idx_out t).2.2.2]; omega

/-- An index of the first result is in point `t`'s block iff each coordinate is in the block's range on its axis. -/
theorem mem_blk15 (t : Fin cfg0.N) (i : S4096x2048.Idx) :
    i ∈ ((cfg0.win 15).blk t).view.set ↔ ∀ a : Fin 2, win0_15.index t a * S512x512.size a ≤ (i a).val
      ∧ (i a).val < win0_15.index t a * S512x512.size a + S512x512.size a := by
  show i ∈ ((View.whole main_v4_0).slice (win0_15.rect t)).set ↔ _
  rw [View.set_slice_whole, Rect.mem_set_unit]
  exact Iff.rfl

theorem mem_blk16 (t : Fin cfg0.N) (i : S4096x2048.Idx) :
    i ∈ ((cfg0.win 16).blk t).view.set ↔ ∀ a : Fin 2, win0_16.index t a * S512x512.size a ≤ (i a).val
      ∧ (i a).val < win0_16.index t a * S512x512.size a + S512x512.size a := by
  show i ∈ ((View.whole main_v4_1).slice (win0_16.rect t)).set ↔ _
  rw [View.set_slice_whole, Rect.mem_set_unit]
  exact Iff.rfl

/-- Every index of the first result lies in the block of the last tile of its row-block and column-block. -/
theorem cover15 (i : S4096x2048.Idx) :
    ∃ t : Fin cfg0.N, (cfg0.win 15).flush t = true ∧ i ∈ ((cfg0.win 15).blk t).view.set := by
  have h0 : (i 0).val < 4096 := (i 0).isLt
  have h1 : (i 1).val < 2048 := (i 1).isLt
  have hN : cfg0.N = 256 := N_0
  obtain ⟨t, ht⟩ : ∃ t : Fin cfg0.N, t.val = 32 * ((i 0).val / 512) + 8 * ((i 1).val / 512) + 7 :=
    ⟨⟨32 * ((i 0).val / 512) + 8 * ((i 1).val / 512) + 7, by omega⟩, rfl⟩
  refine ⟨t, (flush0_15 t).mpr (by omega), ?_⟩
  rw [mem_blk15]
  obtain ⟨-, ⟨e0, e1⟩, -⟩ := idx_out t
  intro a
  match a with
  | ⟨0, _⟩ =>
    show win0_15.index t 0 * 512 ≤ (i 0).val ∧ (i 0).val < win0_15.index t 0 * 512 + 512
    rw [e0]; omega
  | ⟨1, _⟩ =>
    show win0_15.index t 1 * 512 ≤ (i 1).val ∧ (i 1).val < win0_15.index t 1 * 512 + 512
    rw [e1]; omega

theorem cover16 (i : S4096x2048.Idx) :
    ∃ t : Fin cfg0.N, (cfg0.win 16).flush t = true ∧ i ∈ ((cfg0.win 16).blk t).view.set := by
  have h0 : (i 0).val < 4096 := (i 0).isLt
  have h1 : (i 1).val < 2048 := (i 1).isLt
  have hN : cfg0.N = 256 := N_0
  obtain ⟨t, ht⟩ : ∃ t : Fin cfg0.N, t.val = 32 * ((i 0).val / 512) + 8 * ((i 1).val / 512) + 7 :=
    ⟨⟨32 * ((i 0).val / 512) + 8 * ((i 1).val / 512) + 7, by omega⟩, rfl⟩
  refine ⟨t, (flush0_16 t).mpr (by omega), ?_⟩
  rw [mem_blk16]
  obtain ⟨-, -, ⟨e0, e1⟩⟩ := idx_out t
  intro a
  match a with
  | ⟨0, _⟩ =>
    show win0_16.index t 0 * 512 ≤ (i 0).val ∧ (i 0).val < win0_16.index t 0 * 512 + 512
    rw [e0]; omega
  | ⟨1, _⟩ =>
    show win0_16.index t 1 * 512 ≤ (i 1).val ∧ (i 1).val < win0_16.index t 1 * 512 + 512
    rw [e1]; omega

/-- The first result array ends holding the next hidden state. -/
theorem hid_final (c : Dev nD) : (dats m 0 c).arrAt 15 cfg0.N = hidArr m c :=
  (dats m 0 c).arrAt_eq_of_cover 15 (hidArr m c) (hid_flushed m c) cover15

/-- The second result array ends holding the next cell state. -/
theorem cell_final (c : Dev nD) : (dats m 0 c).arrAt 16 cfg0.N = cellArr m c :=
  (dats m 0 c).arrAt_eq_of_cover 16 (cellArr m c) (cell_flushed m c) cover16

/-- The run, read: every weakly fair execution ends with the two results at the next hidden and cell states of the
    argument arrays, the arguments unchanged. -/
theorem run : θ_run defs (onTc (τ := τ) (main (F := Ideal))) ⟨m, fun _ => 0, ρ⟩ fun r => ∀ c : Dev nD,
      r.2.mem ((c : Thread nD τ).loc main_v4_0) = hidArr m c
      ∧ r.2.mem ((c : Thread nD τ).loc main_v4_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono
    (fun r h c => ⟨(h c).1.trans (hid_final m c), (h c).2.1.trans (cell_final m c), (h c).2.2⟩)
    (Value.run_blocks m ρ)

end Cert.KernelIdeal.Final

end
-- ==== Proof.RefSide.lean ====
/-
  The reference program computes the LSTM cell of the specification, read coordinate by coordinate.

  Each of the four gates' pre-activations is the sum of two contractions over all 2048 positions plus the bias at the
  column. Three gates pass the pre-activation through `1 / (1 + exp (-z))`, which is the logistic function by
  definition; the candidate passes it through `tanh`. The next cell state is the forget gate times the old cell state
  plus the input gate times the candidate, and the next hidden state is the output gate times `tanh` of the next cell
  state. Every step is an equation between extended reals at one row `p` and one column `q`.
-/
import proofs.«159235_j16183436772221_1_alg».proof.Proof.Gen.ReferenceIdeal.Read
import proofs.«159235_j16183436772221_1_alg».proof.Proof.LstmSpec

noncomputable section

open scoped BigOperators

namespace Cert.Lstm.Ref

open Cert.ReferenceIdeal Cert.ReferenceIdeal.Read Idealize.ShloMosaic Idealize.ShloMosaic.ValueIdx

/-! ## Contractions -/

/-- A sum over the 2048 positions `k` of the left operand at (row `p`, `k`) times the right operand at (`k`, column `q`),
    the two indices written with the contraction's index functions, is the contraction of row `p` with column `q`. -/
theorem contr_of_sum (x : Act) (w : Wgt) (p : Fin 4096) (q : Fin 2048) (v : EReal)
    (hv : v = ∑ k : Fin 2048, x (lidx_main_v0 (ix2 p q) k) * w (ridx_main_v0 (ix2 p q) k)) : v = contr x w p q := by
  rw [hv]
  unfold contr
  refine Finset.sum_congr rfl fun k _ => ?_
  have hl : lidx_main_v0 (ix2 p q) k = ix2 p k :=
    funext fun a => Fin.ext (by match a with | ⟨0, _⟩ => rfl | ⟨1, _⟩ => rfl)
  have hr : ridx_main_v0 (ix2 p q) k = ix2 k q :=
    funext fun a => Fin.ext (by match a with | ⟨0, _⟩ => rfl | ⟨1, _⟩ => rfl)
  rw [hl, hr]

theorem dot_v0 (x : Act) (w : Wgt) (p : Fin 4096) (q : Fin 2048) :
    val_main_v0 (F := Ideal) x w (ix2 p q) = contr x w p q :=
  contr_of_sum x w p q _ (val_main_v0_apply x w (ix2 p q))
theorem dot_v1 (x : Act) (w : Wgt) (p : Fin 4096) (q : Fin 2048) :
    val_main_v1 (F := Ideal) x w (ix2 p q) = contr x w p q :=
  contr_of_sum x w p q _ (val_main_v1_apply x w (ix2 p q))
theorem dot_v12 (x : Act) (w : Wgt) (p : Fin 4096) (q : Fin 2048) :
    val_main_v12 (F := Ideal) x w (ix2 p q) = contr x w p q :=
  contr_of_sum x w p q _ (val_main_v12_apply x w (ix2 p q))
theorem dot_v13 (x : Act) (w : Wgt) (p : Fin 4096) (q : Fin 2048) :
    val_main_v13 (F := Ideal) x w (ix2 p q) = contr x w p q :=
  contr_of_sum x w p q _ (val_main_v13_apply x w (ix2 p q))
theorem dot_v24 (x : Act) (w : Wgt) (p : Fin 4096) (q : Fin 2048) :
    val_main_v24 (F := Ideal) x w (ix2 p q) = contr x w p q :=
  contr_of_sum x w p q _ (val_main_v24_apply x w (ix2 p q))
theorem dot_v25 (x : Act) (w : Wgt) (p : Fin 4096) (q : Fin 2048) :
    val_main_v25 (F := Ideal) x w (ix2 p q) = contr x w p q :=
  contr_of_sum x w p q _ (val_main_v25_apply x w (ix2 p q))
theorem dot_v36 (x : Act) (w : Wgt) (p : Fin 4096) (q : Fin 2048) :
    val_main_v36 (F := Ideal) x w (ix2 p q) = contr x w p q :=
  contr_of_sum x w p q _ (val_main_v36_apply x w (ix2 p q))
theorem dot_v37 (x : Act) (w : Wgt) (p : Fin 4096) (q : Fin 2048) :
    val_main_v37 (F := Ideal) x w (ix2 p q) = contr x w p q :=
  contr_of_sum x w p q _ (val_main_v37_apply x w (ix2 p q))

/-! ## Biases: a bias spread over the rows reads, at row `p` and column `q`, the bias at `q` -/

theorem bias_v4 (b : Bias) (p : Fin 4096) (q : Fin 2048) : val_main_v4 (F := Ideal) b (ix2 p q) = b (ix1 q) := by
  rw [val_main_v4_apply, val_main_v3_apply]
  exact congrArg b (funext fun a => Fin.ext (by match a with | ⟨0, _⟩ => rfl))
theorem bias_v16 (b : Bias) (p : Fin 4096) (q : Fin 2048) : val_main_v16 (F := Ideal) b (ix2 p q) = b (ix1 q) := by
  rw [val_main_v16_apply, val_main_v15_apply]
  exact congrArg b (funext fun a => Fin.ext (by match a with | ⟨0, _⟩ => rfl))
theorem bias_v28 (b : Bias) (p : Fin 4096) (q : Fin 2048) : val_main_v28 (F := Ideal) b (ix2 p q) = b (ix1 q) := by
  rw [val_main_v28_apply, val_main_v27_apply]
  exact congrArg b (funext fun a => Fin.ext (by match a with | ⟨0, _⟩ => rfl))
theorem bias_v40 (b : Bias) (p : Fin 4096) (q : Fin 2048) : val_main_v40 (F := Ideal) b (ix2 p q) = b (ix1 q) := by
  rw [val_main_v40_apply, val_main_v39_apply]
  exact congrArg b (funext fun a => Fin.ext (by match a with | ⟨0, _⟩ => rfl))

/-! ## The constant one, spread over every row and column -/

theorem one_v8 (i : S4096x2048.Idx) : val_main_v8 (F := Ideal) i = (1 : EReal) := by
  rw [val_main_v8_apply, val_main_cst_apply]
  exact ofBits_one_f32
theorem one_v10 (i : S4096x2048.Idx) : val_main_v10 (F := Ideal) i = (1 : EReal) := by
  rw [val_main_v10_apply, val_main_cst_0_apply]
  exact ofBits_one_f32
theorem one_v20 (i : S4096x2048.Idx) : val_main_v20 (F := Ideal) i = (1 : EReal) := by
  rw [val_main_v20_apply, val_main_cst_1_apply]
  exact ofBits_one_f32
theorem one_v22 (i : S4096x2048.Idx) : val_main_v22 (F := Ideal) i = (1 : EReal) := by
  rw [val_main_v22_apply, val_main_cst_2_apply]
  exact ofBits_one_f32
theorem one_v32 (i : S4096x2048.Idx) : val_main_v32 (F := Ideal) i = (1 : EReal) := by
  rw [val_main_v32_apply, val_main_cst_3_apply]
  exact ofBits_one_f32
theorem one_v34 (i : S4096x2048.Idx) : val_main_v34 (F := Ideal) i = (1 : EReal) := by
  rw [val_main_v34_apply, val_main_cst_4_apply]
  exact ofBits_one_f32

/-! ## Pre-activations: the two contractions, then the bias -/

theorem pre_v5 (x h : Act) (wx wh : Wgt) (b : Bias) (p : Fin 4096) (q : Fin 2048) :
    val_main_v5 (F := Ideal) x h wx wh b (ix2 p q) = pre x h wx wh b p q := by
  rw [val_main_v5_apply, val_main_v2_apply, dot_v0, dot_v1, bias_v4]
  rfl
theorem pre_v17 (x h : Act) (wx wh : Wgt) (b : Bias) (p : Fin 4096) (q : Fin 2048) :
    val_main_v17 (F := Ideal) x h wx wh b (ix2 p q) = pre x h wx wh b p q := by
  rw [val_main_v17_apply, val_main_v14_apply, dot_v12, dot_v13, bias_v16]
  rfl
theorem pre_v29 (x h : Act) (wx wh : Wgt) (b : Bias) (p : Fin 4096) (q : Fin 2048) :
    val_main_v29 (F := Ideal) x h wx wh b (ix2 p q) = pre x h wx wh b p q := by
  rw [val_main_v29_apply, val_main_v26_apply, dot_v24, dot_v25, bias_v28]
  rfl
theorem pre_v41 (x h : Act) (wx wh : Wgt) (b : Bias) (p : Fin 4096) (q : Fin 2048) :
    val_main_v41 (F := Ideal) x h wx wh b (ix2 p q) = pre x h wx wh b p q := by
  rw [val_main_v41_apply, val_main_v38_apply, dot_v36, dot_v37, bias_v40]
  rfl

/-! ## Gates: `1 / (1 + exp (-z))` of the pre-activation is its logistic; the candidate is its `tanh` -/

theorem gate_v11 (x h : Act) (wx wh : Wgt) (b : Bias) (p : Fin 4096) (q : Fin 2048) :
    val_main_v11 (F := Ideal) x h wx wh b (ix2 p q) = Ideal.logistic (pre x h wx wh b p q) := by
  rw [val_main_v11_apply, one_v10, val_main_v9_apply, one_v8, val_main_v7_apply, val_main_v6_apply,
    pre_v5]
  rfl
theorem gate_v23 (x h : Act) (wx wh : Wgt) (b : Bias) (p : Fin 4096) (q : Fin 2048) :
    val_main_v23 (F := Ideal) x h wx wh b (ix2 p q) = Ideal.logistic (pre x h wx wh b p q) := by
  rw [val_main_v23_apply, one_v22, val_main_v21_apply, one_v20, val_main_v19_apply, val_main_v18_apply,
    pre_v17]
  rfl
theorem gate_v35 (x h : Act) (wx wh : Wgt) (b : Bias) (p : Fin 4096) (q : Fin 2048) :
    val_main_v35 (F := Ideal) x h wx wh b (ix2 p q) = Ideal.logistic (pre x h wx wh b p q) := by
  rw [val_main_v35_apply, one_v34, val_main_v33_apply, one_v32, val_main_v31_apply, val_main_v30_apply,
    pre_v29]
  rfl
theorem cand_v42 (x h : Act) (wx wh : Wgt) (b : Bias) (p : Fin 4096) (q : Fin 2048) :
    val_main_v42 (F := Ideal) x h wx wh b (ix2 p q) = Ideal.tanh (pre x h wx wh b p q) := by
  rw [val_main_v42_apply, pre_v41]
  rfl

/-! ## The next cell state and the next hidden state at one row and column -/

/-- Forget gate times old cell state plus input gate times candidate. -/
theorem cell_read (x0 x1 x2 : Cert.Lstm.Act) (x3 x4 : Cert.Lstm.Wgt) (x5 : Cert.Lstm.Bias) (x6 x7 : Cert.Lstm.Wgt) (x8 : Cert.Lstm.Bias) (x9 x10 : Cert.Lstm.Wgt) (x11 : Cert.Lstm.Bias)
    (p : Fin 4096) (q : Fin 2048) :
    val_main_v45 (F := Ideal) x0 x1 x2 x3 x4 x5 x6 x7 x8 x9 x10 x11 (ix2 p q) = cellNext x0 x1 x2 x3 x4 x5 x6 x7 x8 x9 x10 x11 p q := by
  rw [val_main_v45_apply, val_main_v43_apply, val_main_v44_apply, gate_v23, gate_v11, cand_v42]
  rfl

/-- Output gate times `tanh` of the next cell state. -/
theorem hid_read (x0 x1 x2 : Cert.Lstm.Act) (x3 x4 : Cert.Lstm.Wgt) (x5 : Cert.Lstm.Bias) (x6 x7 : Cert.Lstm.Wgt) (x8 : Cert.Lstm.Bias) (x9 x10 : Cert.Lstm.Wgt) (x11 : Cert.Lstm.Bias) (x12 x13 : Cert.Lstm.Wgt) (x14 : Cert.Lstm.Bias)
    (p : Fin 4096) (q : Fin 2048) :
    val_main_v47 (F := Ideal) x0 x1 x2 x3 x4 x5 x6 x7 x8 x9 x10 x11 x12 x13 x14 (ix2 p q) = hidNext x0 x1 x2 x3 x4 x5 x6 x7 x8 x9 x10 x11 x12 x13 x14 p q := by
  rw [val_main_v47_apply, val_main_v46_apply, gate_v35, cell_read]
  rfl

/-! ## The two results as functions of the index -/

theorem cell_eq (x0 x1 x2 : Cert.Lstm.Act) (x3 x4 : Cert.Lstm.Wgt) (x5 : Cert.Lstm.Bias) (x6 x7 : Cert.Lstm.Wgt) (x8 : Cert.Lstm.Bias) (x9 x10 : Cert.Lstm.Wgt) (x11 : Cert.Lstm.Bias) :
    Cert.ReferenceIdeal.Read.val_main_v45 (F := Ideal) x0 x1 x2 x3 x4 x5 x6 x7 x8 x9 x10 x11 = fun j => Cert.Lstm.cellNext x0 x1 x2 x3 x4 x5 x6 x7 x8 x9 x10 x11 (j 0) (j 1) := by
  funext j
  obtain ⟨p, q, rfl⟩ : ∃ (p : Fin 4096) (q : Fin 2048), j = ix2 p q := ⟨j 0, j 1, eq_ix2 j⟩
  exact cell_read x0 x1 x2 x3 x4 x5 x6 x7 x8 x9 x10 x11 p q

theorem hid_eq (x0 x1 x2 : Cert.Lstm.Act) (x3 x4 : Cert.Lstm.Wgt) (x5 : Cert.Lstm.Bias) (x6 x7 : Cert.Lstm.Wgt) (x8 : Cert.Lstm.Bias) (x9 x10 : Cert.Lstm.Wgt) (x11 : Cert.Lstm.Bias) (x12 x13 : Cert.Lstm.Wgt) (x14 : Cert.Lstm.Bias) :
    Cert.ReferenceIdeal.Read.val_main_v47 (F := Ideal) x0 x1 x2 x3 x4 x5 x6 x7 x8 x9 x10 x11 x12 x13 x14 = fun j => Cert.Lstm.hidNext x0 x1 x2 x3 x4 x5 x6 x7 x8 x9 x10 x11 x12 x13 x14 (j 0) (j 1) := by
  funext j
  obtain ⟨p, q, rfl⟩ : ∃ (p : Fin 4096) (q : Fin 2048), j = ix2 p q := ⟨j 0, j 1, eq_ix2 j⟩
  exact hid_read x0 x1 x2 x3 x4 x5 x6 x7 x8 x9 x10 x11 x12 x13 x14 p q

end Cert.Lstm.Ref

end
-- ==== Proof.lean ====
/-
  An LSTM cell over a batch of 4096 rows and 2048 hidden features: a blocked program against the plain formula.

  Both programs compute, for each of the four gates, the pre-activation `x·W_x + h·W_h + b`, then
  `cell' = σ(f)·cell + σ(i)·tanh(g)` and `hidden' = σ(o)·tanh(cell')`. The plain program contracts over all 2048
  positions at once. The blocked program walks an 8 × 4 × 8 grid: for each 512 × 512 block of the results it adds up,
  over eight tiles of 256 positions, the tile's partial contractions into four accumulators that start from zero, and
  at the last tile applies the gate functions and writes the block. Over the extended reals the format changes are
  the identity, a matrix product into a zero accumulator is the plain sum of products, the logistic function is
  `1 / (1 + exp (-z))` on both sides, and addition is commutative and associative, so the eight tiles' sums regroup
  into the whole contractions: the two programs leave the same two arrays. No finiteness of the inputs is used.

  The three frames are the generated runs. The idealization rewrote nothing. The value claim sets the blocked
  program's run (its two result arrays read as `hidNext` and `cellNext` of the arguments) beside the plain
  program's run (its composed term read as the same two functions).
-/
import proofs.«159235_j16183436772221_1_alg».proof.Defs
import proofs.«159235_j16183436772221_1_alg».proof.Proof.Gen.Kernel
import proofs.«159235_j16183436772221_1_alg».proof.Proof.Gen.Kernel.Skeleton
import proofs.«159235_j16183436772221_1_alg».proof.Proof.Gen.Kernel.Launch
import proofs.«159235_j16183436772221_1_alg».proof.Proof.Gen.Kernel.Points
import proofs.«159235_j16183436772221_1_alg».proof.Proof.Gen.Kernel.Frame
import proofs.«159235_j16183436772221_1_alg».proof.Proof.Gen.KernelIdeal
import proofs.«159235_j16183436772221_1_alg».proof.Proof.Gen.KernelIdeal.Skeleton
import proofs.«159235_j16183436772221_1_alg».proof.Proof.Gen.KernelIdeal.Launch
import proofs.«159235_j16183436772221_1_alg».proof.Proof.Gen.KernelIdeal.Points
import proofs.«159235_j16183436772221_1_alg».proof.Proof.Gen.KernelIdeal.Frame
import proofs.«159235_j16183436772221_1_alg».proof.Proof.Gen.ReferenceIdeal
import proofs.«159235_j16183436772221_1_alg».proof.Proof.Gen.Pre_finite_inputs
import proofs.«159235_j16183436772221_1_alg».proof.Proof.Gen.KernelIdeal.Value
import proofs.«159235_j16183436772221_1_alg».proof.Proof.Gen.ReferenceIdeal.Run
import proofs.«159235_j16183436772221_1_alg».proof.Proof.Gen.ReferenceIdeal.Read
import proofs.«159235_j16183436772221_1_alg».proof.Proof.Final
import proofs.«159235_j16183436772221_1_alg».proof.Proof.RefSide
import Idealize.ShloMosaic.Adequacy
import Idealize.ShloMosaic.Init

noncomputable section

namespace Cert.Proof

open Idealize.ShloMosaic Idealize.SL.Sem

/-- The blocked program at the word level runs and leaves its arguments unchanged. -/
theorem frame_k : Cert.frame_Kernel :=
  fun m ρ _ => Cert.Kernel.Gen.frame m ρ

/-- So does its reading over the extended reals. -/
theorem frame_ki : Cert.frame_KernelIdeal :=
  fun m ρ _ => Cert.KernelIdeal.Gen.frame m ρ

/-- The plain program runs and leaves its arguments unchanged: its run with the two results dropped. -/
theorem frame_ri : Cert.frame_ReferenceIdeal :=
  fun m ρ _ => (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the fifteen arguments, both programs end with the next hidden state and the next
    cell state of those arguments: the blocked program by its tiles' fold, the plain program by its composed term. -/
theorem algebraic : Cert.algebraic_KernelIdeal_ReferenceIdeal := by
  intro m ρ m' ρ' _ hagree
  refine ⟨fun c => Cert.KernelIdeal.Final.hidArr m c, fun c => Cert.KernelIdeal.Final.cellArr m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v47_eq, Cert.Lstm.Ref.hid_eq, a0, a1, a2, a3, a4, a5, a6, a7, a8, a9, a10,
      a11, a12, a13, a14]
    rfl
  · obtain ⟨a0, a1, a2, a3, a4, a5, a6, a7, a8, a9, a10, a11, a12, a13, a14⟩ := hagree c
    rw [Cert.ReferenceIdeal.Read.val_main_v45_eq, Cert.Lstm.Ref.cell_eq, a0, a1, a2, a3, a4, a5, a6, a7, a8, a9, a10,
      a11]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
